-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x8 : Shape := ⟨4, ![8, 512, 512, 8]⟩
abbrev S100000x4 : Shape := ⟨2, ![100000, 4]⟩
abbrev S_ : Shape := ⟨0, ![]⟩
abbrev S8x8x512x512 : Shape := ⟨4, ![8, 8, 512, 512]⟩
abbrev S8x512x512 : Shape := ⟨3, ![8, 512, 512]⟩

class Facts : Prop where
  bcast_S_S8x512x512x8 : S_.BroadcastsInDim S8x512x512x8 (![] : Fin 0 → Fin S8x512x512x8.rank)
  reducesTo_S8x512x512x8_S_d0_1_2_3 : S8x512x512x8.ReducesTo [0, 1, 2, 3] S_
  h_S_ : 0 < S_.numel
  bcast_S_S100000x4 : S_.BroadcastsInDim S100000x4 (![] : Fin 0 → Fin S100000x4.rank)
  reducesTo_S100000x4_S_d0_1 : S100000x4.ReducesTo [0, 1] S_
  transposes_S8x512x512x8_S8x8x512x512_0_3_1_2 : S8x512x512x8.Transposes [0, 3, 1, 2] S8x8x512x512
  bcast_S_S8x8x512x512 : S_.BroadcastsInDim S8x8x512x512 (![] : Fin 0 → Fin S8x8x512x512.rank)
  natLt_1_32 : 1 < 32
  reducesTo_S8x8x512x512_S8x512x512_d1 : S8x8x512x512.ReducesTo [1] S8x512x512
  bcast_S_S8x512x512 : S_.BroadcastsInDim S8x512x512 (![] : Fin 0 → Fin S8x512x512.rank)
  reducesTo_S8x512x512_S_d0_1_2 : S8x512x512.ReducesTo [0, 1, 2] S_

variable [Facts]

def fn_part1 {F : FTy → Type} [FloatOps F] (main_v12 : IVec S_ 1) (main_v16 : IVec S8x8x512x512 32) : IVec S_ 1 :=
  let main_c_5 : IVec S_ 32 := constantI S_ 32 0#32
  let main_v17 : IVec S8x512x512 32 := (fun x v => Host.reduce IntOp.addi x v reducesTo_S8x8x512x512_S8x512x512_d1 h_S_) main_v16 main_c_5
  let main_c_6 : IVec S_ 32 := constantI S_ 32 0#32
  let main_v18 : IVec S8x512x512 32 := broadcastInDim S8x512x512 ![] bcast_S_S8x512x512 main_c_6
  let main_v19 : IVec S8x512x512 1 := cmpi .sgt main_v17 main_v18
  let main_c_7 : IVec S_ 1 := constantI S_ 1 1#1
  let main_v20 : IVec S_ 1 := (fun x v => Host.reduce IntOp.andi x v reducesTo_S8x512x512_S_d0_1_2 h_S_) main_v19 main_c_7
  let main_v21 : IVec S_ 1 := andi main_v12 main_v20
  main_v21

def fn {F : FTy → Type} [FloatOps F] (main_arg0 : IVec S8x512x512x8 32) (main_arg1 : FVec F S8x512x512x8 .f32) (main_arg2 : FVec F S100000x4 .f32) : IVec S_ 1 :=
  let main_v0 : FVec F S8x512x512x8 .f32 := Host.absf main_arg1
  let main_cst : FVec F S_ .f32 := constant S_ .f32 0x7F800000#32
  let main_v1 : FVec F S8x512x512x8 .f32 := broadcastInDim S8x512x512x8 ![] bcast_S_S8x512x512x8 main_cst
  let main_v2 : IVec S8x512x512x8 1 := cmpf .olt main_v0 main_v1
  let main_c : IVec S_ 1 := constantI S_ 1 1#1
  let main_v3 : IVec S_ 1 := (fun x v => Host.reduce IntOp.andi x v reducesTo_S8x512x512x8_S_d0_1_2_3 h_S_) main_v2 main_c
  let main_v4 : FVec F S100000x4 .f32 := Host.absf main_arg2
  let main_cst_0 : FVec F S_ .f32 := constant S_ .f32 0x7F800000#32
  let main_v5 : FVec F S100000x4 .f32 := broadcastInDim S100000x4 ![] bcast_S_S100000x4 main_cst_0
  let main_v6 : IVec S100000x4 1 := cmpf .olt main_v4 main_v5
  let main_c_1 : IVec S_ 1 := constantI S_ 1 1#1
  let main_v7 : IVec S_ 1 := (fun x v => Host.reduce IntOp.andi x v reducesTo_S100000x4_S_d0_1 h_S_) main_v6 main_c_1
  let main_v8 : IVec S_ 1 := andi main_v3 main_v7
  let main_c_2 : IVec S_ 32 := constantI S_ 32 100000#32
  let main_v9 : IVec S8x512x512x8 32 := broadcastInDim S8x512x512x8 ![] bcast_S_S8x512x512x8 main_c_2
  let main_v10 : IVec S8x512x512x8 1 := cmpi .sle main_arg0 main_v9
  let main_c_3 : IVec S_ 1 := constantI S_ 1 1#1
  let main_v11 : IVec S_ 1 := (fun x v => Host.reduce IntOp.andi x v reducesTo_S8x512x512x8_S_d0_1_2_3 h_S_) main_v10 main_c_3
  let main_v12 : IVec S_ 1 := andi main_v8 main_v11
  let main_v13 : IVec S8x8x512x512 32 := (transpose S8x8x512x512 [0, 3, 1, 2] · transposes_S8x512x512x8_S8x8x512x512_0_3_1_2) main_arg0
  let main_c_4 : IVec S_ 32 := constantI S_ 32 0#32
  let main_v14 : IVec S8x8x512x512 32 := broadcastInDim S8x8x512x512 ![] bcast_S_S8x8x512x512 main_c_4
  let main_v15 : IVec S8x8x512x512 1 := cmpi .sgt main_v13 main_v14
  let main_v16 : IVec S8x8x512x512 32 := (extui 32 · natLt_1_32) main_v15
  fn_part1 (F := F) main_v12 main_v16
-- ==== Kernel.lean ====
abbrev S8x512x512x8 : Shape := ⟨4, ![8, 512, 512, 8]⟩
abbrev S100000x4 : Shape := ⟨2, ![100000, 4]⟩
abbrev S1x512x512x1 : Shape := ⟨4, ![1, 512, 512, 1]⟩
abbrev S512x512x1 : Shape := ⟨3, ![512, 512, 1]⟩
abbrev S4x100000 : Shape := ⟨2, ![4, 100000]⟩
abbrev S_ : Shape := ⟨0, ![]⟩
abbrev S4x1 : Shape := ⟨2, ![4, 1]⟩
abbrev S4x100001 : Shape := ⟨2, ![4, 100001]⟩
abbrev S4x8x512x512 : Shape := ⟨4, ![4, 8, 512, 512]⟩
abbrev S8x512x512 : Shape := ⟨3, ![8, 512, 512]⟩
abbrev S8x512x512x1 : Shape := ⟨4, ![8, 512, 512, 1]⟩
abbrev S1 : Shape := ⟨1, ![1]⟩
abbrev S1x1x1x1 : Shape := ⟨4, ![1, 1, 1, 1]⟩
abbrev S4x1x256x512 : Shape := ⟨4, ![4, 1, 256, 512]⟩
abbrev S1x256x512 : Shape := ⟨3, ![1, 256, 512]⟩
abbrev S4x256x512 : Shape := ⟨3, ![4, 256, 512]⟩
abbrev S256x512 : Shape := ⟨2, ![256, 512]⟩
abbrev S8x512x512x4 : Shape := ⟨4, ![8, 512, 512, 4]⟩

abbrev nBuf : Space → Nat
  | .hbm => 319
  | .vmem => 6
  | .smem => 0
  | _ => 0

abbrev hbmTy0_0 (i : Nat) : BufTy := match i % 128 with
  | 0 => ⟨S8x512x512x8, .i32⟩
  | 1 => ⟨S8x512x512x8, .f32⟩
  | 2 => ⟨S100000x4, .f32⟩
  | 3 => ⟨S1x512x512x1, .f32⟩
  | 4 => ⟨S512x512x1, .f32⟩
  | 5 => ⟨S4x100000, .f32⟩
  | 6 => ⟨S_, .f32⟩
  | 7 => ⟨S4x1, .f32⟩
  | 8 => ⟨S4x100001, .f32⟩
  | 9 => ⟨S_, .f32⟩
  | 10 => ⟨S4x8x512x512, .f32⟩
  | 11 => ⟨S_, .f32⟩
  | 12 => ⟨S8x512x512, .f32⟩
  | 13 => ⟨S8x512x512x1, .i32⟩
  | 14 => ⟨S8x512x512, .i32⟩
  | 15 => ⟨S_, .i32⟩
  | 16 => ⟨S8x512x512, .i32⟩
  | 17 => ⟨S8x512x512, .i1⟩
  | 18 => ⟨S8x512x512, .f32⟩
  | 19 => ⟨S_, .i32⟩
  | 20 => ⟨S8x512x512, .i32⟩
  | 21 => ⟨S8x512x512, .i1⟩
  | 22 => ⟨S_, .i32⟩
  | 23 => ⟨S_, .i32⟩
  | 24 => ⟨S8x512x512, .i32⟩
  | 25 => ⟨S8x512x512, .i32⟩
  | 26 => ⟨S_, .i32⟩
  | 27 => ⟨S8x512x512, .i32⟩
  | 28 => ⟨S8x512x512, .i1⟩
  | 29 => ⟨S_, .i32⟩
  | 30 => ⟨S8x512x512, .i32⟩
  | 31 => ⟨S8x512x512, .i32⟩
  | 32 => ⟨S8x512x512, .i32⟩
  | 33 => ⟨S8x512x512x1, .i32⟩
  | 34 => ⟨S1, .i32⟩
  | 35 => ⟨S_, .i32⟩
  | 36 => ⟨S8x512x512x1, .i32⟩
  | 37 => ⟨S8x512x512x1, .i1⟩
  | 38 => ⟨S1x1x1x1, .i32⟩
  | 39 => ⟨S8x512x512x1, .i32⟩
  | 40 => ⟨S8x512x512x1, .i1⟩
  | 41 => ⟨S8x512x512x1, .i1⟩
  | 42 => ⟨S_, .i1⟩
  | 43 => ⟨S8x512x512, .i1⟩
  | 44 => ⟨S4x8x512x512, .f32⟩
  | 45 => ⟨S4x8x512x512, .i1⟩
  | 46 => ⟨S_, .f32⟩
  | 47 => ⟨S4x8x512x512, .f32⟩
  | 48 => ⟨S4x8x512x512, .f32⟩
  | 49 => ⟨S4x8x512x512, .f32⟩
  | 50 => ⟨S8x512x512, .f32⟩
  | 51 => ⟨S8x512x512x1, .i32⟩
  | 52 => ⟨S8x512x512, .i32⟩
  | 53 => ⟨S_, .i32⟩
  | 54 => ⟨S8x512x512, .i32⟩
  | 55 => ⟨S8x512x512, .i1⟩
  | 56 => ⟨S8x512x512, .f32⟩
  | 57 => ⟨S_, .i32⟩
  | 58 => ⟨S8x512x512, .i32⟩
  | 59 => ⟨S8x512x512, .i1⟩
  | 60 => ⟨S_, .i32⟩
  | 61 => ⟨S_, .i32⟩
  | 62 => ⟨S8x512x512, .i32⟩
  | 63 => ⟨S8x512x512, .i32⟩
  | 64 => ⟨S_, .i32⟩
  | 65 => ⟨S8x512x512, .i32⟩
  | 66 => ⟨S8x512x512, .i1⟩
  | 67 => ⟨S_, .i32⟩
  | 68 => ⟨S8x512x512, .i32⟩
  | 69 => ⟨S8x512x512, .i32⟩
  | 70 => ⟨S8x512x512, .i32⟩
  | 71 => ⟨S8x512x512x1, .i32⟩
  | 72 => ⟨S1, .i32⟩
  | 73 => ⟨S_, .i32⟩
  | 74 => ⟨S8x512x512x1, .i32⟩
  | 75 => ⟨S8x512x512x1, .i1⟩
  | 76 => ⟨S1x1x1x1, .i32⟩
  | 77 => ⟨S8x512x512x1, .i32⟩
  | 78 => ⟨S8x512x512x1, .i1⟩
  | 79 => ⟨S8x512x512x1, .i1⟩
  | 80 => ⟨S_, .i1⟩
  | 81 => ⟨S8x512x512, .i1⟩
  | 82 => ⟨S4x8x512x512, .f32⟩
  | 83 => ⟨S4x8x512x512, .i1⟩
  | 84 => ⟨S_, .f32⟩
  | 85 => ⟨S4x8x512x512, .f32⟩
  | 86 => ⟨S4x8x512x512, .f32⟩
  | 87 => ⟨S4x8x512x512, .f32⟩
  | 88 => ⟨S8x512x512, .f32⟩
  | 89 => ⟨S8x512x512x1, .i32⟩
  | 90 => ⟨S8x512x512, .i32⟩
  | 91 => ⟨S_, .i32⟩
  | 92 => ⟨S8x512x512, .i32⟩
  | 93 => ⟨S8x512x512, .i1⟩
  | 94 => ⟨S8x512x512, .f32⟩
  | 95 => ⟨S_, .i32⟩
  | 96 => ⟨S8x512x512, .i32⟩
  | 97 => ⟨S8x512x512, .i1⟩
  | 98 => ⟨S_, .i32⟩
  | 99 => ⟨S_, .i32⟩
  | 100 => ⟨S8x512x512, .i32⟩
  | 101 => ⟨S8x512x512, .i32⟩
  | 102 => ⟨S_, .i32⟩
  | 103 => ⟨S8x512x512, .i32⟩
  | 104 => ⟨S8x512x512, .i1⟩
  | 105 => ⟨S_, .i32⟩
  | 106 => ⟨S8x512x512, .i32⟩
  | 107 => ⟨S8x512x512, .i32⟩
  | 108 => ⟨S8x512x512, .i32⟩
  | 109 => ⟨S8x512x512x1, .i32⟩
  | 110 => ⟨S1, .i32⟩
  | 111 => ⟨S_, .i32⟩
  | 112 => ⟨S8x512x512x1, .i32⟩
  | 113 => ⟨S8x512x512x1, .i1⟩
  | 114 => ⟨S1x1x1x1, .i32⟩
  | 115 => ⟨S8x512x512x1, .i32⟩
  | 116 => ⟨S8x512x512x1, .i1⟩
  | 117 => ⟨S8x512x512x1, .i1⟩
  | 118 => ⟨S_, .i1⟩
  | 119 => ⟨S8x512x512, .i1⟩
  | 120 => ⟨S4x8x512x512, .f32⟩
  | 121 => ⟨S4x8x512x512, .i1⟩
  | 122 => ⟨S_, .f32⟩
  | 123 => ⟨S4x8x512x512, .f32⟩
  | 124 => ⟨S4x8x512x512, .f32⟩
  | 125 => ⟨S4x8x512x512, .f32⟩
  | 126 => ⟨S8x512x512, .f32⟩
  | 127 => ⟨S8x512x512x1, .i32⟩
  | _ => ⟨S8x512x512x8, .i32⟩

abbrev hbmTy0_1 (i : Nat) : BufTy := match i % 128 with
  | 0 => ⟨S8x512x512, .i32⟩
  | 1 => ⟨S_, .i32⟩
  | 2 => ⟨S8x512x512, .i32⟩
  | 3 => ⟨S8x512x512, .i1⟩
  | 4 => ⟨S8x512x512, .f32⟩
  | 5 => ⟨S_, .i32⟩
  | 6 => ⟨S8x512x512, .i32⟩
  | 7 => ⟨S8x512x512, .i1⟩
  | 8 => ⟨S_, .i32⟩
  | 9 => ⟨S_, .i32⟩
  | 10 => ⟨S8x512x512, .i32⟩
  | 11 => ⟨S8x512x512, .i32⟩
  | 12 => ⟨S_, .i32⟩
  | 13 => ⟨S8x512x512, .i32⟩
  | 14 => ⟨S8x512x512, .i1⟩
  | 15 => ⟨S_, .i32⟩
  | 16 => ⟨S8x512x512, .i32⟩
  | 17 => ⟨S8x512x512, .i32⟩
  | 18 => ⟨S8x512x512, .i32⟩
  | 19 => ⟨S8x512x512x1, .i32⟩
  | 20 => ⟨S1, .i32⟩
  | 21 => ⟨S_, .i32⟩
  | 22 => ⟨S8x512x512x1, .i32⟩
  | 23 => ⟨S8x512x512x1, .i1⟩
  | 24 => ⟨S1x1x1x1, .i32⟩
  | 25 => ⟨S8x512x512x1, .i32⟩
  | 26 => ⟨S8x512x512x1, .i1⟩
  | 27 => ⟨S8x512x512x1, .i1⟩
  | 28 => ⟨S_, .i1⟩
  | 29 => ⟨S8x512x512, .i1⟩
  | 30 => ⟨S4x8x512x512, .f32⟩
  | 31 => ⟨S4x8x512x512, .i1⟩
  | 32 => ⟨S_, .f32⟩
  | 33 => ⟨S4x8x512x512, .f32⟩
  | 34 => ⟨S4x8x512x512, .f32⟩
  | 35 => ⟨S4x8x512x512, .f32⟩
  | 36 => ⟨S8x512x512, .f32⟩
  | 37 => ⟨S8x512x512x1, .i32⟩
  | 38 => ⟨S8x512x512, .i32⟩
  | 39 => ⟨S_, .i32⟩
  | 40 => ⟨S8x512x512, .i32⟩
  | 41 => ⟨S8x512x512, .i1⟩
  | 42 => ⟨S8x512x512, .f32⟩
  | 43 => ⟨S_, .i32⟩
  | 44 => ⟨S8x512x512, .i32⟩
  | 45 => ⟨S8x512x512, .i1⟩
  | 46 => ⟨S_, .i32⟩
  | 47 => ⟨S_, .i32⟩
  | 48 => ⟨S8x512x512, .i32⟩
  | 49 => ⟨S8x512x512, .i32⟩
  | 50 => ⟨S_, .i32⟩
  | 51 => ⟨S8x512x512, .i32⟩
  | 52 => ⟨S8x512x512, .i1⟩
  | 53 => ⟨S_, .i32⟩
  | 54 => ⟨S8x512x512, .i32⟩
  | 55 => ⟨S8x512x512, .i32⟩
  | 56 => ⟨S8x512x512, .i32⟩
  | 57 => ⟨S8x512x512x1, .i32⟩
  | 58 => ⟨S1, .i32⟩
  | 59 => ⟨S_, .i32⟩
  | 60 => ⟨S8x512x512x1, .i32⟩
  | 61 => ⟨S8x512x512x1, .i1⟩
  | 62 => ⟨S1x1x1x1, .i32⟩
  | 63 => ⟨S8x512x512x1, .i32⟩
  | 64 => ⟨S8x512x512x1, .i1⟩
  | 65 => ⟨S8x512x512x1, .i1⟩
  | 66 => ⟨S_, .i1⟩
  | 67 => ⟨S8x512x512, .i1⟩
  | 68 => ⟨S4x8x512x512, .f32⟩
  | 69 => ⟨S4x8x512x512, .i1⟩
  | 70 => ⟨S_, .f32⟩
  | 71 => ⟨S4x8x512x512, .f32⟩
  | 72 => ⟨S4x8x512x512, .f32⟩
  | 73 => ⟨S4x8x512x512, .f32⟩
  | 74 => ⟨S8x512x512, .f32⟩
  | 75 => ⟨S8x512x512x1, .i32⟩
  | 76 => ⟨S8x512x512, .i32⟩
  | 77 => ⟨S_, .i32⟩
  | 78 => ⟨S8x512x512, .i32⟩
  | 79 => ⟨S8x512x512, .i1⟩
  | 80 => ⟨S8x512x512, .f32⟩
  | 81 => ⟨S_, .i32⟩
  | 82 => ⟨S8x512x512, .i32⟩
  | 83 => ⟨S8x512x512, .i1⟩
  | 84 => ⟨S_, .i32⟩
  | 85 => ⟨S_, .i32⟩
  | 86 => ⟨S8x512x512, .i32⟩
  | 87 => ⟨S8x512x512, .i32⟩
  | 88 => ⟨S_, .i32⟩
  | 89 => ⟨S8x512x512, .i32⟩
  | 90 => ⟨S8x512x512, .i1⟩
  | 91 => ⟨S_, .i32⟩
  | 92 => ⟨S8x512x512, .i32⟩
  | 93 => ⟨S8x512x512, .i32⟩
  | 94 => ⟨S8x512x512, .i32⟩
  | 95 => ⟨S8x512x512x1, .i32⟩
  | 96 => ⟨S1, .i32⟩
  | 97 => ⟨S_, .i32⟩
  | 98 => ⟨S8x512x512x1, .i32⟩
  | 99 => ⟨S8x512x512x1, .i1⟩
  | 100 => ⟨S1x1x1x1, .i32⟩
  | 101 => ⟨S8x512x512x1, .i32⟩
  | 102 => ⟨S8x512x512x1, .i1⟩
  | 103 => ⟨S8x512x512x1, .i1⟩
  | 104 => ⟨S_, .i1⟩
  | 105 => ⟨S8x512x512, .i1⟩
  | 106 => ⟨S4x8x512x512, .f32⟩
  | 107 => ⟨S4x8x512x512, .i1⟩
  | 108 => ⟨S_, .f32⟩
  | 109 => ⟨S4x8x512x512, .f32⟩
  | 110 => ⟨S4x8x512x512, .f32⟩
  | 111 => ⟨S4x8x512x512, .f32⟩
  | 112 => ⟨S8x512x512, .f32⟩
  | 113 => ⟨S8x512x512x1, .i32⟩
  | 114 => ⟨S8x512x512, .i32⟩
  | 115 => ⟨S_, .i32⟩
  | 116 => ⟨S8x512x512, .i32⟩
  | 117 => ⟨S8x512x512, .i1⟩
  | 118 => ⟨S8x512x512, .f32⟩
  | 119 => ⟨S_, .i32⟩
  | 120 => ⟨S8x512x512, .i32⟩
  | 121 => ⟨S8x512x512, .i1⟩
  | 122 => ⟨S_, .i32⟩
  | 123 => ⟨S_, .i32⟩
  | 124 => ⟨S8x512x512, .i32⟩
  | 125 => ⟨S8x512x512, .i32⟩
  | 126 => ⟨S_, .i32⟩
  | 127 => ⟨S8x512x512, .i32⟩
  | _ => ⟨S8x512x512x8, .i32⟩

abbrev hbmTy0_2 (i : Nat) : BufTy := match i % 128 with
  | 0 => ⟨S8x512x512, .i1⟩
  | 1 => ⟨S_, .i32⟩
  | 2 => ⟨S8x512x512, .i32⟩
  | 3 => ⟨S8x512x512, .i32⟩
  | 4 => ⟨S8x512x512, .i32⟩
  | 5 => ⟨S8x512x512x1, .i32⟩
  | 6 => ⟨S1, .i32⟩
  | 7 => ⟨S_, .i32⟩
  | 8 => ⟨S8x512x512x1, .i32⟩
  | 9 => ⟨S8x512x512x1, .i1⟩
  | 10 => ⟨S1x1x1x1, .i32⟩
  | 11 => ⟨S8x512x512x1, .i32⟩
  | 12 => ⟨S8x512x512x1, .i1⟩
  | 13 => ⟨S8x512x512x1, .i1⟩
  | 14 => ⟨S_, .i1⟩
  | 15 => ⟨S8x512x512, .i1⟩
  | 16 => ⟨S4x8x512x512, .f32⟩
  | 17 => ⟨S4x8x512x512, .i1⟩
  | 18 => ⟨S_, .f32⟩
  | 19 => ⟨S4x8x512x512, .f32⟩
  | 20 => ⟨S4x8x512x512, .f32⟩
  | 21 => ⟨S4x8x512x512, .f32⟩
  | 22 => ⟨S8x512x512, .f32⟩
  | 23 => ⟨S8x512x512x1, .i32⟩
  | 24 => ⟨S8x512x512, .i32⟩
  | 25 => ⟨S_, .i32⟩
  | 26 => ⟨S8x512x512, .i32⟩
  | 27 => ⟨S8x512x512, .i1⟩
  | 28 => ⟨S8x512x512, .f32⟩
  | 29 => ⟨S_, .i32⟩
  | 30 => ⟨S8x512x512, .i32⟩
  | 31 => ⟨S8x512x512, .i1⟩
  | 32 => ⟨S_, .i32⟩
  | 33 => ⟨S_, .i32⟩
  | 34 => ⟨S8x512x512, .i32⟩
  | 35 => ⟨S8x512x512, .i32⟩
  | 36 => ⟨S_, .i32⟩
  | 37 => ⟨S8x512x512, .i32⟩
  | 38 => ⟨S8x512x512, .i1⟩
  | 39 => ⟨S_, .i32⟩
  | 40 => ⟨S8x512x512, .i32⟩
  | 41 => ⟨S8x512x512, .i32⟩
  | 42 => ⟨S8x512x512, .i32⟩
  | 43 => ⟨S8x512x512x1, .i32⟩
  | 44 => ⟨S1, .i32⟩
  | 45 => ⟨S_, .i32⟩
  | 46 => ⟨S8x512x512x1, .i32⟩
  | 47 => ⟨S8x512x512x1, .i1⟩
  | 48 => ⟨S1x1x1x1, .i32⟩
  | 49 => ⟨S8x512x512x1, .i32⟩
  | 50 => ⟨S8x512x512x1, .i1⟩
  | 51 => ⟨S8x512x512x1, .i1⟩
  | 52 => ⟨S_, .i1⟩
  | 53 => ⟨S8x512x512, .i1⟩
  | 54 => ⟨S4x8x512x512, .f32⟩
  | 55 => ⟨S4x8x512x512, .i1⟩
  | 56 => ⟨S_, .f32⟩
  | 57 => ⟨S4x8x512x512, .f32⟩
  | 58 => ⟨S4x8x512x512, .f32⟩
  | 59 => ⟨S4x8x512x512, .f32⟩
  | 60 => ⟨S8x512x512, .f32⟩
  | 61 => ⟨S4x8x512x512, .f32⟩
  | 62 => ⟨S8x512x512x4, .f32⟩
  | _ => ⟨S8x512x512x8, .i32⟩

abbrev hbmTy (i : Nat) : BufTy := match i / 128 with
  | 0 => hbmTy0_0 i
  | 1 => hbmTy0_1 i
  | 2 => hbmTy0_2 i
  | _ => ⟨S8x512x512x8, .i32⟩

abbrev bufTy : (tb : Table) → Fin (tcTables nBuf tb) → BufTy
  | .hbm, ⟨i, _⟩ => hbmTy i
  | .local _ .vmem, ⟨0, _⟩ => ⟨S4x1x256x512, .f32⟩
  | .local _ .vmem, ⟨1, _⟩ => ⟨S4x1x256x512, .f32⟩
  | .local _ .vmem, ⟨2, _⟩ => ⟨S1x256x512, .f32⟩
  | .local _ .vmem, ⟨3, _⟩ => ⟨S1x256x512, .f32⟩
  | .local _ .vmem, ⟨4, _⟩ => ⟨S4x1x256x512, .f32⟩
  | .local _ .vmem, ⟨5, _⟩ => ⟨S4x1x256x512, .f32⟩
  | _, _ => ⟨S8x512x512x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c_4 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_5 : Ref sig .tc := ⟨.hbm, 57, rfl⟩
abbrev main_v23 : Ref sig .tc := ⟨.hbm, 58, rfl⟩
abbrev main_v24 : Ref sig .tc := ⟨.hbm, 59, rfl⟩
abbrev main_c_6 : Ref sig .tc := ⟨.hbm, 60, rfl⟩
abbrev main_call2_v0 : Ref sig .tc := ⟨.hbm, 61, rfl⟩
abbrev main_call2_v1 : Ref sig .tc := ⟨.hbm, 62, rfl⟩
abbrev main_v25 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_cst : Ref sig .tc := ⟨.hbm, 84, rfl⟩
abbrev main_call3_v15 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_c_7 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_c_8 : Ref sig .tc := ⟨.hbm, 95, rfl⟩
abbrev main_v34 : Ref sig .tc := ⟨.hbm, 96, rfl⟩
abbrev main_v35 : Ref sig .tc := ⟨.hbm, 97, rfl⟩
abbrev main_c_9 : Ref sig .tc := ⟨.hbm, 98, rfl⟩
abbrev main_call4_v0 : Ref sig .tc := ⟨.hbm, 99, rfl⟩
abbrev main_call4_v1 : Ref sig .tc := ⟨.hbm, 100, rfl⟩
abbrev main_v36 : Ref sig .tc := ⟨.hbm, 101, rfl⟩
abbrev main_call5_c : Ref sig .tc := ⟨.hbm, 102, rfl⟩
abbrev main_call5_v0 : Ref sig .tc := ⟨.hbm, 103, rfl⟩
abbrev main_call5_v1 : Ref sig .tc := ⟨.hbm, 104, rfl⟩
abbrev main_call5_c_0 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_c_1 : Ref sig .tc := ⟨.hbm, 110, rfl⟩
abbrev main_call5_c_2 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_3 : Ref sig .tc := ⟨.hbm, 118, rfl⟩
abbrev main_call5_v12 : Ref sig .tc := ⟨.hbm, 119, rfl⟩
abbrev main_call5_v13 : Ref sig .tc := ⟨.hbm, 120, rfl⟩
abbrev main_call5_v14 : Ref sig .tc := ⟨.hbm, 121, rfl⟩
abbrev main_call5_cst : Ref sig .tc := ⟨.hbm, 122, rfl⟩
abbrev main_call5_v15 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_c_10 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_c_11 : Ref sig .tc := ⟨.hbm, 133, rfl⟩
abbrev main_v45 : Ref sig .tc := ⟨.hbm, 134, rfl⟩
abbrev main_v46 : Ref sig .tc := ⟨.hbm, 135, rfl⟩
abbrev main_c_12 : Ref sig .tc := ⟨.hbm, 136, rfl⟩
abbrev main_call6_v0 : Ref sig .tc := ⟨.hbm, 137, rfl⟩
abbrev main_call6_v1 : Ref sig .tc := ⟨.hbm, 138, rfl⟩
abbrev main_v47 : Ref sig .tc := ⟨.hbm, 139, rfl⟩
abbrev main_call7_c : Ref sig .tc := ⟨.hbm, 140, rfl⟩
abbrev main_call7_v0 : Ref sig .tc := ⟨.hbm, 141, rfl⟩
abbrev main_call7_v1 : Ref sig .tc := ⟨.hbm, 142, rfl⟩
abbrev main_call7_c_0 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_call7_v5 : Ref sig .tc := ⟨.hbm, 147, rfl⟩
abbrev main_call7_c_1 : Ref sig .tc := ⟨.hbm, 148, rfl⟩
abbrev main_call7_c_2 : Ref sig .tc := ⟨.hbm, 149, rfl⟩
abbrev main_call7_v6 : Ref sig .tc := ⟨.hbm, 150, rfl⟩
abbrev main_call7_v7 : Ref sig .tc := ⟨.hbm, 151, rfl⟩
abbrev main_call7_v8 : Ref sig .tc := ⟨.hbm, 152, rfl⟩
abbrev main_call7_v9 : Ref sig .tc := ⟨.hbm, 153, rfl⟩
abbrev main_call7_v10 : Ref sig .tc := ⟨.hbm, 154, rfl⟩
abbrev main_call7_v11 : Ref sig .tc := ⟨.hbm, 155, rfl⟩
abbrev main_call7_c_3 : Ref sig .tc := ⟨.hbm, 156, rfl⟩
abbrev main_call7_v12 : Ref sig .tc := ⟨.hbm, 157, rfl⟩
abbrev main_call7_v13 : Ref sig .tc := ⟨.hbm, 158, rfl⟩
abbrev main_call7_v14 : Ref sig .tc := ⟨.hbm, 159, rfl⟩
abbrev main_call7_cst : Ref sig .tc := ⟨.hbm, 160, rfl⟩
abbrev main_call7_v15 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_c_13 : Ref sig .tc := ⟨.hbm, 167, rfl⟩
abbrev main_v53 : Ref sig .tc := ⟨.hbm, 168, rfl⟩
abbrev main_v54 : Ref sig .tc := ⟨.hbm, 169, rfl⟩
abbrev main_v55 : Ref sig .tc := ⟨.hbm, 170, rfl⟩
abbrev main_c_14 : Ref sig .tc := ⟨.hbm, 171, rfl⟩
abbrev main_v56 : Ref sig .tc := ⟨.hbm, 172, rfl⟩
abbrev main_v57 : Ref sig .tc := ⟨.hbm, 173, rfl⟩
abbrev main_c_15 : Ref sig .tc := ⟨.hbm, 174, rfl⟩
abbrev main_call8_v0 : Ref sig .tc := ⟨.hbm, 175, rfl⟩
abbrev main_call8_v1 : Ref sig .tc := ⟨.hbm, 176, rfl⟩
abbrev main_v58 : Ref sig .tc := ⟨.hbm, 177, rfl⟩
abbrev main_call9_c : Ref sig .tc := ⟨.hbm, 178, rfl⟩
abbrev main_call9_v0 : Ref sig .tc := ⟨.hbm, 179, rfl⟩
abbrev main_call9_v1 : Ref sig .tc := ⟨.hbm, 180, rfl⟩
abbrev main_call9_c_0 : Ref sig .tc := ⟨.hbm, 181, rfl⟩
abbrev main_call9_v2 : Ref sig .tc := ⟨.hbm, 182, rfl⟩
abbrev main_call9_v3 : Ref sig .tc := ⟨.hbm, 183, rfl⟩
abbrev main_call9_v4 : Ref sig .tc := ⟨.hbm, 184, rfl⟩
abbrev main_call9_v5 : Ref sig .tc := ⟨.hbm, 185, rfl⟩
abbrev main_call9_c_1 : Ref sig .tc := ⟨.hbm, 186, rfl⟩
abbrev main_call9_c_2 : Ref sig .tc := ⟨.hbm, 187, rfl⟩
abbrev main_call9_v6 : Ref sig .tc := ⟨.hbm, 188, rfl⟩
abbrev main_call9_v7 : Ref sig .tc := ⟨.hbm, 189, rfl⟩
abbrev main_call9_v8 : Ref sig .tc := ⟨.hbm, 190, rfl⟩
abbrev main_call9_v9 : Ref sig .tc := ⟨.hbm, 191, rfl⟩
abbrev main_call9_v10 : Ref sig .tc := ⟨.hbm, 192, rfl⟩
abbrev main_call9_v11 : Ref sig .tc := ⟨.hbm, 193, rfl⟩
abbrev main_call9_c_3 : Ref sig .tc := ⟨.hbm, 194, rfl⟩
abbrev main_call9_v12 : Ref sig .tc := ⟨.hbm, 195, rfl⟩
abbrev main_call9_v13 : Ref sig .tc := ⟨.hbm, 196, rfl⟩
abbrev main_call9_v14 : Ref sig .tc := ⟨.hbm, 197, rfl⟩
abbrev main_call9_cst : Ref sig .tc := ⟨.hbm, 198, rfl⟩
abbrev main_call9_v15 : Ref sig .tc := ⟨.hbm, 199, rfl⟩
abbrev main_v59 : Ref sig .tc := ⟨.hbm, 200, rfl⟩
abbrev main_v60 : Ref sig .tc := ⟨.hbm, 201, rfl⟩
abbrev main_v61 : Ref sig .tc := ⟨.hbm, 202, rfl⟩
abbrev main_v62 : Ref sig .tc := ⟨.hbm, 203, rfl⟩
abbrev main_v63 : Ref sig .tc := ⟨.hbm, 204, rfl⟩
abbrev main_c_16 : Ref sig .tc := ⟨.hbm, 205, rfl⟩
abbrev main_v64 : Ref sig .tc := ⟨.hbm, 206, rfl⟩
abbrev main_v65 : Ref sig .tc := ⟨.hbm, 207, rfl⟩
abbrev main_v66 : Ref sig .tc := ⟨.hbm, 208, rfl⟩
abbrev main_c_17 : Ref sig .tc := ⟨.hbm, 209, rfl⟩
abbrev main_v67 : Ref sig .tc := ⟨.hbm, 210, rfl⟩
abbrev main_v68 : Ref sig .tc := ⟨.hbm, 211, rfl⟩
abbrev main_c_18 : Ref sig .tc := ⟨.hbm, 212, rfl⟩
abbrev main_call10_v0 : Ref sig .tc := ⟨.hbm, 213, rfl⟩
abbrev main_call10_v1 : Ref sig .tc := ⟨.hbm, 214, rfl⟩
abbrev main_v69 : Ref sig .tc := ⟨.hbm, 215, rfl⟩
abbrev main_call11_c : Ref sig .tc := ⟨.hbm, 216, rfl⟩
abbrev main_call11_v0 : Ref sig .tc := ⟨.hbm, 217, rfl⟩
abbrev main_call11_v1 : Ref sig .tc := ⟨.hbm, 218, rfl⟩
abbrev main_call11_c_0 : Ref sig .tc := ⟨.hbm, 219, rfl⟩
abbrev main_call11_v2 : Ref sig .tc := ⟨.hbm, 220, rfl⟩
abbrev main_call11_v3 : Ref sig .tc := ⟨.hbm, 221, rfl⟩
abbrev main_call11_v4 : Ref sig .tc := ⟨.hbm, 222, rfl⟩
abbrev main_call11_v5 : Ref sig .tc := ⟨.hbm, 223, rfl⟩
abbrev main_call11_c_1 : Ref sig .tc := ⟨.hbm, 224, rfl⟩
abbrev main_call11_c_2 : Ref sig .tc := ⟨.hbm, 225, rfl⟩
abbrev main_call11_v6 : Ref sig .tc := ⟨.hbm, 226, rfl⟩
abbrev main_call11_v7 : Ref sig .tc := ⟨.hbm, 227, rfl⟩
abbrev main_call11_v8 : Ref sig .tc := ⟨.hbm, 228, rfl⟩
abbrev main_call11_v9 : Ref sig .tc := ⟨.hbm, 229, rfl⟩
abbrev main_call11_v10 : Ref sig .tc := ⟨.hbm, 230, rfl⟩
abbrev main_call11_v11 : Ref sig .tc := ⟨.hbm, 231, rfl⟩
abbrev main_call11_c_3 : Ref sig .tc := ⟨.hbm, 232, rfl⟩
abbrev main_call11_v12 : Ref sig .tc := ⟨.hbm, 233, rfl⟩
abbrev main_call11_v13 : Ref sig .tc := ⟨.hbm, 234, rfl⟩
abbrev main_call11_v14 : Ref sig .tc := ⟨.hbm, 235, rfl⟩
abbrev main_call11_cst : Ref sig .tc := ⟨.hbm, 236, rfl⟩
abbrev main_call11_v15 : Ref sig .tc := ⟨.hbm, 237, rfl⟩
abbrev main_v70 : Ref sig .tc := ⟨.hbm, 238, rfl⟩
abbrev main_v71 : Ref sig .tc := ⟨.hbm, 239, rfl⟩
abbrev main_v72 : Ref sig .tc := ⟨.hbm, 240, rfl⟩
abbrev main_v73 : Ref sig .tc := ⟨.hbm, 241, rfl⟩
abbrev main_v74 : Ref sig .tc := ⟨.hbm, 242, rfl⟩
abbrev main_c_19 : Ref sig .tc := ⟨.hbm, 243, rfl⟩
abbrev main_v75 : Ref sig .tc := ⟨.hbm, 244, rfl⟩
abbrev main_v76 : Ref sig .tc := ⟨.hbm, 245, rfl⟩
abbrev main_v77 : Ref sig .tc := ⟨.hbm, 246, rfl⟩
abbrev main_c_20 : Ref sig .tc := ⟨.hbm, 247, rfl⟩
abbrev main_v78 : Ref sig .tc := ⟨.hbm, 248, rfl⟩
abbrev main_v79 : Ref sig .tc := ⟨.hbm, 249, rfl⟩
abbrev main_c_21 : Ref sig .tc := ⟨.hbm, 250, rfl⟩
abbrev main_call12_v0 : Ref sig .tc := ⟨.hbm, 251, rfl⟩
abbrev main_call12_v1 : Ref sig .tc := ⟨.hbm, 252, rfl⟩
abbrev main_v80 : Ref sig .tc := ⟨.hbm, 253, rfl⟩
abbrev main_call13_c : Ref sig .tc := ⟨.hbm, 254, rfl⟩
abbrev main_call13_v0 : Ref sig .tc := ⟨.hbm, 255, rfl⟩
abbrev main_call13_v1 : Ref sig .tc := ⟨.hbm, 256, rfl⟩
abbrev main_call13_c_0 : Ref sig .tc := ⟨.hbm, 257, rfl⟩
abbrev main_call13_v2 : Ref sig .tc := ⟨.hbm, 258, rfl⟩
abbrev main_call13_v3 : Ref sig .tc := ⟨.hbm, 259, rfl⟩
abbrev main_call13_v4 : Ref sig .tc := ⟨.hbm, 260, rfl⟩
abbrev main_call13_v5 : Ref sig .tc := ⟨.hbm, 261, rfl⟩
abbrev main_call13_c_1 : Ref sig .tc := ⟨.hbm, 262, rfl⟩
abbrev main_call13_c_2 : Ref sig .tc := ⟨.hbm, 263, rfl⟩
abbrev main_call13_v6 : Ref sig .tc := ⟨.hbm, 264, rfl⟩
abbrev main_call13_v7 : Ref sig .tc := ⟨.hbm, 265, rfl⟩
abbrev main_call13_v8 : Ref sig .tc := ⟨.hbm, 266, rfl⟩
abbrev main_call13_v9 : Ref sig .tc := ⟨.hbm, 267, rfl⟩
abbrev main_call13_v10 : Ref sig .tc := ⟨.hbm, 268, rfl⟩
abbrev main_call13_v11 : Ref sig .tc := ⟨.hbm, 269, rfl⟩
abbrev main_call13_c_3 : Ref sig .tc := ⟨.hbm, 270, rfl⟩
abbrev main_call13_v12 : Ref sig .tc := ⟨.hbm, 271, rfl⟩
abbrev main_call13_v13 : Ref sig .tc := ⟨.hbm, 272, rfl⟩
abbrev main_call13_v14 : Ref sig .tc := ⟨.hbm, 273, rfl⟩
abbrev main_call13_cst : Ref sig .tc := ⟨.hbm, 274, rfl⟩
abbrev main_call13_v15 : Ref sig .tc := ⟨.hbm, 275, rfl⟩
abbrev main_v81 : Ref sig .tc := ⟨.hbm, 276, rfl⟩
abbrev main_v82 : Ref sig .tc := ⟨.hbm, 277, rfl⟩
abbrev main_v83 : Ref sig .tc := ⟨.hbm, 278, rfl⟩
abbrev main_v84 : Ref sig .tc := ⟨.hbm, 279, rfl⟩
abbrev main_v85 : Ref sig .tc := ⟨.hbm, 280, rfl⟩
abbrev main_c_22 : Ref sig .tc := ⟨.hbm, 281, rfl⟩
abbrev main_v86 : Ref sig .tc := ⟨.hbm, 282, rfl⟩
abbrev main_v87 : Ref sig .tc := ⟨.hbm, 283, rfl⟩
abbrev main_v88 : Ref sig .tc := ⟨.hbm, 284, rfl⟩
abbrev main_c_23 : Ref sig .tc := ⟨.hbm, 285, rfl⟩
abbrev main_v89 : Ref sig .tc := ⟨.hbm, 286, rfl⟩
abbrev main_v90 : Ref sig .tc := ⟨.hbm, 287, rfl⟩
abbrev main_c_24 : Ref sig .tc := ⟨.hbm, 288, rfl⟩
abbrev main_call14_v0 : Ref sig .tc := ⟨.hbm, 289, rfl⟩
abbrev main_call14_v1 : Ref sig .tc := ⟨.hbm, 290, rfl⟩
abbrev main_v91 : Ref sig .tc := ⟨.hbm, 291, rfl⟩
abbrev main_call15_c : Ref sig .tc := ⟨.hbm, 292, rfl⟩
abbrev main_call15_v0 : Ref sig .tc := ⟨.hbm, 293, rfl⟩
abbrev main_call15_v1 : Ref sig .tc := ⟨.hbm, 294, rfl⟩
abbrev main_call15_c_0 : Ref sig .tc := ⟨.hbm, 295, rfl⟩
abbrev main_call15_v2 : Ref sig .tc := ⟨.hbm, 296, rfl⟩
abbrev main_call15_v3 : Ref sig .tc := ⟨.hbm, 297, rfl⟩
abbrev main_call15_v4 : Ref sig .tc := ⟨.hbm, 298, rfl⟩
abbrev main_call15_v5 : Ref sig .tc := ⟨.hbm, 299, rfl⟩
abbrev main_call15_c_1 : Ref sig .tc := ⟨.hbm, 300, rfl⟩
abbrev main_call15_c_2 : Ref sig .tc := ⟨.hbm, 301, rfl⟩
abbrev main_call15_v6 : Ref sig .tc := ⟨.hbm, 302, rfl⟩
abbrev main_call15_v7 : Ref sig .tc := ⟨.hbm, 303, rfl⟩
abbrev main_call15_v8 : Ref sig .tc := ⟨.hbm, 304, rfl⟩
abbrev main_call15_v9 : Ref sig .tc := ⟨.hbm, 305, rfl⟩
abbrev main_call15_v10 : Ref sig .tc := ⟨.hbm, 306, rfl⟩
abbrev main_call15_v11 : Ref sig .tc := ⟨.hbm, 307, rfl⟩
abbrev main_call15_c_3 : Ref sig .tc := ⟨.hbm, 308, rfl⟩
abbrev main_call15_v12 : Ref sig .tc := ⟨.hbm, 309, rfl⟩
abbrev main_call15_v13 : Ref sig .tc := ⟨.hbm, 310, rfl⟩
abbrev main_call15_v14 : Ref sig .tc := ⟨.hbm, 311, rfl⟩
abbrev main_call15_cst : Ref sig .tc := ⟨.hbm, 312, rfl⟩
abbrev main_call15_v15 : Ref sig .tc := ⟨.hbm, 313, rfl⟩
abbrev main_v92 : Ref sig .tc := ⟨.hbm, 314, rfl⟩
abbrev main_v93 : Ref sig .tc := ⟨.hbm, 315, rfl⟩
abbrev main_v94 : Ref sig .tc := ⟨.hbm, 316, rfl⟩
abbrev main_v95 : Ref sig .tc := ⟨.hbm, 317, rfl⟩
abbrev main_v96 : Ref sig .tc := ⟨.hbm, 318, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S4x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S8x512x512x8_S1x512x512x1_0_0_0_0 : S8x512x512x8.Slices ![0, 0, 0, 0] S1x512x512x1
  shapeCasts_S1x512x512x1_S512x512x1 : S1x512x512x1.ShapeCasts S512x512x1
  transposes_S100000x4_S4x100000_1_0 : S100000x4.Transposes [1, 0] S4x100000
  bcast_S_S4x1 : S_.BroadcastsInDim S4x1 (![] : Fin 0 → Fin S4x1.rank)
  concatenates_S4x100000_S4x1_S4x100001_d1 : Shape.Concatenates [S4x100000, S4x1] S4x100001 1
  bcast_S_S4x8x512x512 : S_.BroadcastsInDim S4x8x512x512 (![] : Fin 0 → Fin S4x8x512x512.rank)
  bcast_S_S8x512x512 : S_.BroadcastsInDim S8x512x512 (![] : Fin 0 → Fin S8x512x512.rank)
  slices_S8x512x512x8_S8x512x512x1_0_0_0_0 : S8x512x512x8.Slices ![0, 0, 0, 0] S8x512x512x1
  shapeCasts_S8x512x512x1_S8x512x512 : S8x512x512x1.ShapeCasts S8x512x512
  bcast_S8x512x512_S8x512x512x1_0_1_2 : S8x512x512.BroadcastsInDim S8x512x512x1 (![0, 1, 2] : Fin 3 → Fin S8x512x512x1.rank)
  bcast_S_S8x512x512x1 : S_.BroadcastsInDim S8x512x512x1 (![] : Fin 0 → Fin S8x512x512x1.rank)
  bcast_S1_S1x1x1x1_3 : S1.BroadcastsInDim S1x1x1x1 (![3] : Fin 1 → Fin S1x1x1x1.rank)
  bcast_S1x1x1x1_S8x512x512x1_0_1_2_3 : S1x1x1x1.BroadcastsInDim S8x512x512x1 (![0, 1, 2, 3] : Fin 4 → Fin S8x512x512x1.rank)
  reducesTo_S8x512x512x1_S8x512x512_d3 : S8x512x512x1.ReducesTo [3] S8x512x512
  h_S_ : 0 < S_.numel
  bcast_S8x512x512_S4x8x512x512_1_2_3 : S8x512x512.BroadcastsInDim S4x8x512x512 (![1, 2, 3] : Fin 3 → Fin S4x8x512x512.rank)
  slices_S8x512x512x8_S8x512x512x1_0_0_0_1 : S8x512x512x8.Slices ![0, 0, 0, 1] S8x512x512x1
  slices_S8x512x512x8_S8x512x512x1_0_0_0_2 : S8x512x512x8.Slices ![0, 0, 0, 2] S8x512x512x1
  slices_S8x512x512x8_S8x512x512x1_0_0_0_3 : S8x512x512x8.Slices ![0, 0, 0, 3] S8x512x512x1
  slices_S8x512x512x8_S8x512x512x1_0_0_0_4 : S8x512x512x8.Slices ![0, 0, 0, 4] S8x512x512x1
  slices_S8x512x512x8_S8x512x512x1_0_0_0_5 : S8x512x512x8.Slices ![0, 0, 0, 5] S8x512x512x1
  slices_S8x512x512x8_S8x512x512x1_0_0_0_6 : S8x512x512x8.Slices ![0, 0, 0, 6] S8x512x512x1
  slices_S8x512x512x8_S8x512x512x1_0_0_0_7 : S8x512x512x8.Slices ![0, 0, 0, 7] S8x512x512x1
  inb_S4x1x256x512_S4x1x256x512_0_0_0_0 : ∀ a, (![0, 0, 0, 0] : Fin 4 → Nat) a + S4x1x256x512.size a ≤ S4x1x256x512.size a
  h_S4x1x256x512 : 0 < S4x1x256x512.numel
  shapeCasts_S4x1x256x512_S4x256x512 : S4x1x256x512.ShapeCasts S4x256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  broadcasts_S1x256x512_S4x256x512 : S1x256x512.Broadcasts S4x256x512
  shapeCasts_S4x256x512_S4x1x256x512 : S4x256x512.ShapeCasts S4x1x256x512
  transposes_S4x8x512x512_S8x512x512x4_1_2_3_0 : S4x8x512x512.Transposes [1, 2, 3, 0] S8x512x512x4
  gather_S4x100001_S8x512x512x1_S4x8x512x512_0_1_n_n_1_3_41_wf : GatherDims.WF S4x100001 S8x512x512x1 S4x8x512x512 [0] [1] [] [1] [] 3 ![4, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x256x512.size a ≤ S4x8x512x512.size a
  hwx0_0 : ∀ i : grid0.Coords, EltTy.bits .f32 = 32 ∨ (Rect.block (s := S4x8x512x512) S4x1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S8x512x512.size a
  hwx0_1 : ∀ i : grid0.Coords, EltTy.bits .f32 = 32 ∨ (Rect.block (s := S8x512x512) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x256x512.size a ≤ S4x8x512x512.size a
  hwx0_2 : ∀ i : grid0.Coords, EltTy.bits .f32 = 32 ∨ (Rect.block (s := S4x8x512x512) S4x1x256x512.size (cc0_transform_2 i) (hinb0_2 i)).WholeWords (EltTy.packing .f32)

variable [Facts₀]

def gather_S4x100001_S8x512x512x1_S4x8x512x512_0_1_n_n_1_3_41 : GatherDims S4x100001 S8x512x512x1 S4x8x512x512 where
  offsetDims := [0]
  collapsedSliceDims := [1]
  operandBatchingDims := []
  startIndicesBatchingDims := []
  startIndexMap := [1]
  indexVectorDim := 3
  sliceSizes := ![4, 1]
  wf := gather_S4x100001_S8x512x512x1_S4x8x512x512_0_1_n_n_1_3_41_wf

abbrev win0_0 : Pipeline.Window sig grid0 :=
  Pipeline.Window.ofSpec (Memref.whole main_v93) S4x1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v94) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v95) S4x1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x512x8 : Shape := ⟨4, ![8, 512, 512, 8]⟩
abbrev S100000x4 : Shape := ⟨2, ![100000, 4]⟩
abbrev S1x512x512x1 : Shape := ⟨4, ![1, 512, 512, 1]⟩
abbrev S512x512x1 : Shape := ⟨3, ![512, 512, 1]⟩
abbrev S8x8x512x512 : Shape := ⟨4, ![8, 8, 512, 512]⟩
abbrev S_ : Shape := ⟨0, ![]⟩
abbrev S8x512x512 : Shape := ⟨3, ![8, 512, 512]⟩
abbrev S1x4 : Shape := ⟨2, ![1, 4]⟩
abbrev S100001x4 : Shape := ⟨2, ![100001, 4]⟩
abbrev S8x8x512x512x1 : Shape := ⟨5, ![8, 8, 512, 512, 1]⟩
abbrev S8x8x512x512x4 : Shape := ⟨5, ![8, 8, 512, 512, 4]⟩
abbrev S8x512x512x4 : Shape := ⟨4, ![8, 512, 512, 4]⟩
abbrev S8x512x512x1 : Shape := ⟨4, ![8, 512, 512, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x512x512x8, .i32⟩
  | .hbm, ⟨1, _⟩ => ⟨S8x512x512x8, .f32⟩
  | .hbm, ⟨2, _⟩ => ⟨S100000x4, .f32⟩
  | .hbm, ⟨3, _⟩ => ⟨S1x512x512x1, .f32⟩
  | .hbm, ⟨4, _⟩ => ⟨S512x512x1, .f32⟩
  | .hbm, ⟨5, _⟩ => ⟨S8x8x512x512, .i32⟩
  | .hbm, ⟨6, _⟩ => ⟨S_, .i32⟩
  | .hbm, ⟨7, _⟩ => ⟨S8x8x512x512, .i32⟩
  | .hbm, ⟨8, _⟩ => ⟨S8x8x512x512, .i1⟩
  | .hbm, ⟨9, _⟩ => ⟨S8x8x512x512, .i32⟩
  | .hbm, ⟨10, _⟩ => ⟨S_, .i32⟩
  | .hbm, ⟨11, _⟩ => ⟨S8x512x512, .i32⟩
  | .hbm, ⟨12, _⟩ => ⟨S_, .f32⟩
  | .hbm, ⟨13, _⟩ => ⟨S1x4, .f32⟩
  | .hbm, ⟨14, _⟩ => ⟨S100001x4, .f32⟩
  | .hbm, ⟨15, _⟩ => ⟨S_, .i32⟩
  | .hbm, ⟨16, _⟩ => ⟨S8x8x512x512, .i32⟩
  | .hbm, ⟨17, _⟩ => ⟨S8x8x512x512, .i1⟩
  | .hbm, ⟨18, _⟩ => ⟨S_, .i32⟩
  | .hbm, ⟨19, _⟩ => ⟨S_, .i32⟩
  | .hbm, ⟨20, _⟩ => ⟨S8x8x512x512, .i32⟩
  | .hbm, ⟨21, _⟩ => ⟨S8x8x512x512, .i32⟩
  | .hbm, ⟨22, _⟩ => ⟨S_, .i32⟩
  | .hbm, ⟨23, _⟩ => ⟨S8x8x512x512, .i32⟩
  | .hbm, ⟨24, _⟩ => ⟨S8x8x512x512, .i1⟩
  | .hbm, ⟨25, _⟩ => ⟨S_, .i32⟩
  | .hbm, ⟨26, _⟩ => ⟨S8x8x512x512, .i32⟩
  | .hbm, ⟨27, _⟩ => ⟨S8x8x512x512, .i32⟩
  | .hbm, ⟨28, _⟩ => ⟨S8x8x512x512, .i32⟩
  | .hbm, ⟨29, _⟩ => ⟨S8x8x512x512x1, .i32⟩
  | .hbm, ⟨30, _⟩ => ⟨S8x8x512x512x4, .f32⟩
  | .hbm, ⟨31, _⟩ => ⟨S_, .f32⟩
  | .hbm, ⟨32, _⟩ => ⟨S8x512x512x4, .f32⟩
  | .hbm, ⟨33, _⟩ => ⟨S8x512x512, .f32⟩
  | .hbm, ⟨34, _⟩ => ⟨S8x512x512, .f32⟩
  | .hbm, ⟨35, _⟩ => ⟨S8x512x512x1, .f32⟩
  | .hbm, ⟨36, _⟩ => ⟨S8x512x512x4, .f32⟩
  | .hbm, ⟨37, _⟩ => ⟨S8x512x512x4, .f32⟩
  | _, _ => ⟨S8x512x512x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  slices_S8x512x512x8_S1x512x512x1_0_0_0_0 : S8x512x512x8.Slices ![0, 0, 0, 0] S1x512x512x1
  shapeCasts_S1x512x512x1_S512x512x1 : S1x512x512x1.ShapeCasts S512x512x1
  transposes_S8x512x512x8_S8x8x512x512_0_3_1_2 : S8x512x512x8.Transposes [0, 3, 1, 2] S8x8x512x512
  bcast_S_S8x8x512x512 : S_.BroadcastsInDim S8x8x512x512 (![] : Fin 0 → Fin S8x8x512x512.rank)
  natLt_1_32 : 1 < 32
  reducesTo_S8x8x512x512_S8x512x512_d1 : S8x8x512x512.ReducesTo [1] S8x512x512
  h_S_ : 0 < S_.numel
  bcast_S_S1x4 : S_.BroadcastsInDim S1x4 (![] : Fin 0 → Fin S1x4.rank)
  concatenates_S100000x4_S1x4_S100001x4_d0 : Shape.Concatenates [S100000x4, S1x4] S100001x4 0
  bcast_S8x8x512x512_S8x8x512x512x1_0_1_2_3 : S8x8x512x512.BroadcastsInDim S8x8x512x512x1 (![0, 1, 2, 3] : Fin 4 → Fin S8x8x512x512x1.rank)
  reducesTo_S8x8x512x512x4_S8x512x512x4_d1 : S8x8x512x512x4.ReducesTo [1] S8x512x512x4
  bcast_S8x512x512_S8x512x512x1_0_1_2 : S8x512x512.BroadcastsInDim S8x512x512x1 (![0, 1, 2] : Fin 3 → Fin S8x512x512x1.rank)
  bcast_S8x512x512x1_S8x512x512x4_0_1_2_3 : S8x512x512x1.BroadcastsInDim S8x512x512x4 (![0, 1, 2, 3] : Fin 4 → Fin S8x512x512x4.rank)
  gather_S100001x4_S8x8x512x512x1_S8x8x512x512x4_4_0_n_n_0_4_14_wf : GatherDims.WF S100001x4 S8x8x512x512x1 S8x8x512x512x4 [4] [0] [] [0] [] 4 ![1, 4]

variable [Facts₀]

def gather_S100001x4_S8x8x512x512x1_S8x8x512x512x4_4_0_n_n_0_4_14 : GatherDims S100001x4 S8x8x512x512x1 S8x8x512x512x4 where
  offsetDims := [4]
  collapsedSliceDims := [0]
  operandBatchingDims := []
  startIndicesBatchingDims := []
  startIndexMap := [0]
  indexVectorDim := 4
  sliceSizes := ![1, 4]
  wf := gather_S100001x4_S8x8x512x512x1_S8x8x512x512x4_4_0_n_n_0_4_14_wf

class Facts : Prop extends Facts₀ where

variable [Facts]
-- ==== Proof.Spec.lean ====
/-
  Point-cloud compositing with equal weights, as one function of the argument arrays.

  Every pixel (b, h, w) carries eight point indices. An index selects a row of the feature table padded with one
  zero row at position 100000: a negative index (the "empty" mark) selects that zero row, an index in 0 … 100000 selects
  its own row. The pixel's four channels are the sum of the eight selected rows, divided by the square root of the number
  of its strictly positive indices. Stated here over the extended reals, with the two small laws that let the two
  programs' spellings of the normalisation meet: for a count N ≥ 1, dividing by √N is multiplying by (√N)⁻¹, and the
  reciprocal root guarded by "N > 0" is that same factor.
-/
import Idealize.ShloMosaic.PureOps.Ideal
import Idealize.ShloMosaic.Lib.ValueIdx

noncomputable section

open scoped BigOperators

namespace Cert.Composite

open Idealize.ShloMosaic Idealize.ShloMosaic.ValueIdx

/-- The shapes of the point indices, the feature table and the image. -/
abbrev SPts : Shape := ⟨4, ![8, 512, 512, 8]⟩
abbrev STab : Shape := ⟨2, ![100000, 4]⟩
abbrev SImg : Shape := ⟨4, ![8, 512, 512, 4]⟩

/-- The row of the padded table a point index selects: a negative index selects the zero row 100000. -/
def rowOf (x : BitVec 32) : ℕ := if x.toInt < 0 then 100000 else x.toInt.toNat

/-- The padded table: the features, then zero. -/
def padded (feat : STab.Idx → EReal) (r : ℕ) (c : Fin 4) : EReal :=
  if h : r < 100000 then feat (ix2 ⟨r, h⟩ c) else 0

/-- One for a strictly positive point index, zero otherwise. -/
def hit (x : BitVec 32) : ℕ := if 0 < x.toInt then 1 else 0

/-- The number of strictly positive point indices of a pixel. -/
def cnt (pts : SPts.Idx → BitVec 32) (b : Fin 8) (h w : Fin 512) : ℕ := ∑ k : Fin 8, hit (pts (ix4 b h w k))

/-- The sum of the eight selected rows, one channel. -/
def featSum (pts : SPts.Idx → BitVec 32) (feat : STab.Idx → EReal) (b : Fin 8) (h w : Fin 512) (c : Fin 4) : EReal :=
  ∑ k : Fin 8, padded feat (rowOf (pts (ix4 b h w k))) c

/-- The normalising factor of a pixel: one over the root of its count. -/
def norm (pts : SPts.Idx → BitVec 32) (b : Fin 8) (h w : Fin 512) : EReal :=
  (((Real.sqrt (cnt pts b h w : ℝ))⁻¹ : ℝ) : EReal)

/-- The image. -/
def image (pts : SPts.Idx → BitVec 32) (feat : STab.Idx → EReal) : SImg.Idx → EReal :=
  fun i => featSum pts feat (i 0) (i 1) (i 2) (i 3) * norm pts (i 0) (i 1) (i 2)

theorem image_apply (pts : SPts.Idx → BitVec 32) (feat : STab.Idx → EReal) (b : Fin 8) (h w : Fin 512) (c : Fin 4) :
    image pts feat (ix4 b h w c) = featSum pts feat b h w c * norm pts b h w := rfl

theorem hit_le_one (x : BitVec 32) : hit x ≤ 1 := by unfold hit; split <;> omega

theorem cnt_le (pts : SPts.Idx → BitVec 32) (b : Fin 8) (h w : Fin 512) : cnt pts b h w ≤ 8 := by
  unfold cnt
  calc ∑ k : Fin 8, hit (pts (ix4 b h w k)) ≤ ∑ _k : Fin 8, 1 := Finset.sum_le_sum fun k _ => hit_le_one _
    _ = 8 := by simp

/-- Dividing by the root of a positive count is multiplying by its reciprocal, on every extended real. -/
theorem div_sqrt_count (x : EReal) (n : ℕ) (hn : 0 < n) :
    Ideal.div x (Ideal.sqrt ((n : ℝ) : EReal)) = x * (((Real.sqrt (n : ℝ))⁻¹ : ℝ) : EReal) := by
  have hpos : (0 : ℝ) < (n : ℝ) := by exact_mod_cast hn
  have hs : Real.sqrt (n : ℝ) ≠ 0 := (Real.sqrt_pos.mpr hpos).ne'
  have e : Ideal.sqrt ((n : ℝ) : EReal) = ((Real.sqrt (n : ℝ) : ℝ) : EReal) := by
    show (if (n : ℝ) < 0 then (⊥ : EReal) else (Real.sqrt (n : ℝ) : EReal)) = _
    rw [if_neg (by linarith)]
  rw [e, Ideal.div_coe hs, one_div]

/-- The reciprocal root of a positive count. -/
theorem rsqrt_count (n : ℕ) (hn : 0 < n) :
    Ideal.rsqrt ((n : ℝ) : EReal) = (((Real.sqrt (n : ℝ))⁻¹ : ℝ) : EReal) := by
  have hpos : (0 : ℝ) < (n : ℝ) := by exact_mod_cast hn
  show (if (n : ℝ) < 0 then (⊥ : EReal) else if (n : ℝ) = 0 then ⊤ else (((Real.sqrt (n : ℝ))⁻¹ : ℝ) : EReal)) = _
  rw [if_neg (by linarith), if_neg hpos.ne']

end Cert.Composite

end
-- ==== Proof.KBody.lean ====
/-
  The kernel body at one element of its output block: the summed feature of the channel times the pixel's factor — the
  reciprocal root of the count where the count is positive, zero elsewhere. For a count N ≥ 1 the factor is (√N)⁻¹.
-/
import proofs.«417189_j13855564497223_3_alg».proof.Proof.Gen.KernelIdeal.Skeleton
import proofs.«417189_j13855564497223_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

variable [Facts]
open Facts₀ Facts

/-- The pixel's factor as the body computes it from the count. -/
def factor (n : EReal) : EReal :=
  Scalar.select (Ideal.cmp .ogt n (Ideal.ofBits .f32 0x00000000#32)) (Ideal.rsqrt n) (Ideal.ofBits .f32 0x00000000#32)

/-- For a positive whole count the factor is one over its root. -/
theorem factor_count (n : ℕ) (hn : 0 < n) : factor ((n : ℝ) : EReal) = (((Real.sqrt (n : ℝ))⁻¹ : ℝ) : EReal) := by
  have hpos : (0 : EReal) < ((n : ℝ) : EReal) := by exact_mod_cast hn
  unfold factor
  rw [Ideal.ofBits_zero_f32]
  have hc : Ideal.cmp .ogt ((n : ℝ) : EReal) 0 = 1#1 := by
    show BitVec.ofBool (decide ((0 : EReal) < ((n : ℝ) : EReal))) = 1#1
    rw [decide_eq_true hpos]; rfl
  rw [hc, select_one, Cert.Composite.rsqrt_count n hn]

/-- A reciprocal root at an index is the reciprocal root of the element. -/
theorem rsqrt_at {s : Shape} (v : FVec Ideal s .f32) (i : s.Idx) : rsqrt v i = Ideal.rsqrt (v i) := rfl

/-- The body's stored value at channel `c`, row `r`, column `q` of the block. -/
theorem pay_apply (v0 : Vec Ideal S4x1x256x512 .f32) (v2 : Vec Ideal S1x256x512 .f32) (c : Fin 4) (r : Fin 256) (q : Fin 512) :
    k0_pay1 (F := Ideal) v0 v2 (ix4 c (0 : Fin 1) r q) = v0 (ix4 c (0 : Fin 1) r q) * factor (v2 (ix3 (0 : Fin 1) r q)) := by
  unfold k0_pay1
  -- the stored [4,1,256,512] value at (c,0,r,q) is the [4,256,512] product at (c,r,q)
  refine (shapeCast_apply _ _ (ix4 c (0 : Fin 1) r q) (ix3 c r q) (by
    rw [Shape.rowMajor_val_three, Shape.rowMajor_val_four]
    show (c.val * 256 + r.val) * 512 + q.val = ((c.val * 1 + 0) * 256 + r.val) * 512 + q.val
    omega)).trans ?_
  rw [mulf_apply]
  -- its first factor: the summed block with the unit axis dropped
  have e1 : ∀ hc : S4x1x256x512.ShapeCasts S4x256x512, shapeCast S4x256x512 v0 hc (ix3 c r q) = v0 (ix4 c (0 : Fin 1) r q) := fun hc =>
    shapeCast_apply v0 hc (ix3 c r q) (ix4 c (0 : Fin 1) r q) (by
      rw [Shape.rowMajor_val_three, Shape.rowMajor_val_four]
      show ((c.val * 1 + 0) * 256 + r.val) * 512 + q.val = (c.val * 256 + r.val) * 512 + q.val
      omega)
  -- its second factor: the pixel's factor, laid along the channel axis
  have e2 : ∀ (y : (⟨3, ![1, 256, 512]⟩ : Shape).Idx → EReal) (hb : S1x256x512.Broadcasts S4x256x512),
      broadcastTo S4x256x512 y hb (ix3 c r q) = y (ix3 (0 : Fin 1) r q) := fun y hb =>
    broadcastTo_apply y hb (ix3 c r q) (ix3 (0 : Fin 1) r q) (fun a => match a with
      | ⟨0, _⟩ => by show (0 : ℕ) = if (1 : ℕ) = 1 then 0 else _; rw [if_pos rfl]
      | ⟨1, _⟩ => by show r.val = if (256 : ℕ) = 1 then 0 else r.val; rw [if_neg (by decide)]
      | ⟨2, _⟩ => by show q.val = if (512 : ℕ) = 1 then 0 else q.val; rw [if_neg (by decide)])
  rw [e1, e2, shapeCast_ab_1ab_apply, select_apply, cmpf_apply, rsqrt_at, shapeCast_1ab_ab_apply]
  rfl

/-- The same at any index of the block: its channel, row and column are the index's coordinates. -/
theorem pay_at (v0 : Vec Ideal S4x1x256x512 .f32) (v2 : Vec Ideal S1x256x512 .f32) (y : S4x1x256x512.Idx) :
    k0_pay1 (F := Ideal) v0 v2 y
      = v0 y * factor (v2 (ix3 (0 : Fin 1) (⟨(y 2).val, (y 2).isLt⟩ : Fin 256) (⟨(y 3).val, (y 3).isLt⟩ : Fin 512))) := by
  obtain ⟨c, u, r, q, rfl⟩ : ∃ (c : Fin 4) (u : Fin 1) (r : Fin 256) (q : Fin 512), y = ix4 c u r q :=
    ⟨y 0, y 1, y 2, y 3, eq_ix4 y⟩
  obtain rfl : u = 0 := Subsingleton.elim _ _
  exact pay_apply v0 v2 c r q

end Cert.KernelIdeal.Body

end
-- ==== Proof.KArray.lean ====
/-
  The kernel's output array after the launch, as one function of the two arrays the launch reads: at channel c and pixel
  (b, h, w) it holds the summed feature there times the pixel's factor. Grid point (b, j) handles image b and rows
  256·j … 256·j + 255: its output block and its summed-feature block sit at the same place of their [4, 8, 512, 512] arrays,
  its count block at the matching place of the [8, 512, 512] array; the sixteen blocks tile the output.
-/
import proofs.«417189_j13855564497223_3_alg».proof.Proof.Gen.KernelIdeal.Frame
import proofs.«417189_j13855564497223_3_alg».proof.Proof.KBody
import Idealize.ShloMosaic.Lib.Pipeline.Value

set_option maxRecDepth 16384

noncomputable section

namespace Cert.KernelIdeal.Body

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The output array from the summed features and the count. -/
def outArr (s : FVec Ideal S4x8x512x512 .f32) (n : FVec Ideal S8x512x512 .f32) : FVec Ideal S4x8x512x512 .f32 :=
  fun i => s i * factor (n (ix3 (⟨(i 1).val, (i 1).isLt⟩ : Fin 8) (⟨(i 2).val, (i 2).isLt⟩ : Fin 512) (⟨(i 3).val, (i 3).isLt⟩ : Fin 512)))

theorem outArr_apply (s : FVec Ideal S4x8x512x512 .f32) (n : FVec Ideal S8x512x512 .f32) (c : Fin 4) (b : Fin 8) (h w : Fin 512) :
    outArr s n (ix4 c b h w) = s (ix4 c b h w) * factor (n (ix3 b h w)) := rfl

/-- The blocks and arrays at their literal types. -/
abbrev sblk (c : Dev nD) (t : Fin cfg0.N) : Vec Ideal S4x1x256x512 .f32 := iblk m c 0 t
abbrev nblk (c : Dev nD) (t : Fin cfg0.N) : Vec Ideal S1x256x512 .f32 := iblk m c 1 t
abbrev sarr (c : Dev nD) : Vec Ideal S4x8x512x512 .f32 := V m c main_v93
abbrev narr (c : Dev nD) : Vec Ideal S8x512x512 .f32 := V m c main_v94

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The three index maps, decided over the grid: the summed-feature block moves with the output block, the count block
    with its last three axes; the channel and column block indices are zero. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = win0_2.index t (2 : Fin 4) ∧ win0_0.index t (3 : Fin 4) = win0_2.index t (3 : Fin 4)
    ∧ win0_1.index t (0 : Fin 3) = win0_2.index t (1 : Fin 4) ∧ win0_1.index t (1 : Fin 3) = win0_2.index t (2 : Fin 4)
    ∧ win0_1.index t (2 : Fin 3) = win0_2.index t (3 : Fin 4)
    ∧ win0_2.index t (0 : Fin 4) = 0 ∧ win0_2.index t (1 : Fin 4) ≤ 7 ∧ win0_2.index t (2 : Fin 4) ≤ 1 ∧ win0_2.index t (3 : Fin 4) = 0 :=
  (by decide +kernel : ∀ t : Fin grid0.N, _)

/-- Every (image, row half) is some grid point's. -/
theorem idx_onto : ∀ (q1 : Fin 8) (q2 : Fin 2), ∃ t : Fin cfg0.N, win0_2.index t = ![0, q1.val, q2.val, 0] :=
  (by decide +kernel : ∀ (q1 : Fin 8) (q2 : Fin 2), ∃ t : Fin grid0.N, win0_2.index t = ![0, q1.val, q2.val, 0])

/-- The summed-feature block at a point, read off its array. -/
theorem sblk_read (c : Dev nD) (t : Fin cfg0.N) (y : S4x1x256x512.Idx) :
    (iblk m c 0 t : Vec Ideal S4x1x256x512 .f32) y = sarr m c (((cfg0.win 0).blk t).view.emb y) := by
  unfold iblk
  rw [View.read_apply, cast_eq]

/-- The count block at a point, read off its array. -/
theorem nblk_read (c : Dev nD) (t : Fin cfg0.N) (y : S1x256x512.Idx) :
    (iblk m c 1 t : Vec Ideal S1x256x512 .f32) y = narr m c (((cfg0.win 1).blk t).view.emb y) := by
  unfold iblk
  rw [View.read_apply, cast_eq]

/-- What grid point `t` writes back is block `t` of the output array's function. -/
theorem flushed_eq (c : Dev nD) (t : Fin cfg0.N) :
    (dats m 0 c).flushed 2 t = ((cfg0.win 2).blk t).view.read (Elt Ideal) (outArr (sarr m c) (narr m c)) := by
  show (cfg0.win 2).cut (grid0.coords t) ((dats m 0 c).after 2 t) = _
  rw [after0_2]
  unfold out0_2
  rw [View.canon_unit_zero hz4]
  simp only [View.ld_unit_zero (S := S4x1x256x512) hz4, View.ld_unit_zero (S := S1x256x512) hz3]
  obtain ⟨e0, e1, e2, e3, e4, e5, e6, e7, e8, e9, e10⟩ := idx_facts t
  funext j
  rw [View.read_apply, cast_eq]
  show k0_pay1 (F := Ideal) _ _ ((win0 2).xinj (grid0.coords t) j) = _
  unfold outArr
  refine (pay_at (iblk m c 0 t) (iblk m c 1 t) ((win0 2).xinj (grid0.coords t) j)).trans ?_
  rw [sblk_read, nblk_read]
  have hj0 : (j 0).val < 4 := (j 0).isLt
  have hj1 : (j 1).val < 1 := (j 1).isLt
  have hj2 : (j 2).val < 256 := (j 2).isLt
  have hj3 : (j 3).val < 512 := (j 3).isLt
  -- the summed-feature block and the output block sit at the same place
  have h0 : ((cfg0.win 0).blk t).view.emb ((win0 2).xinj (grid0.coords t) j)
      = ((View.whole main_v95).slice ((win0 2).rect t)).emb j := by
    funext a; apply Fin.ext
    match a with
    | ⟨0, _⟩ => show win0_0.index t (0 : Fin 4) * 4 + 1 * (j 0).val = win0_2.index t (0 : Fin 4) * 4 + 1 * (j 0).val; omega
    | ⟨1, _⟩ => show win0_0.index t (1 : Fin 4) * 1 + 1 * (j 1).val = win0_2.index t (1 : Fin 4) * 1 + 1 * (j 1).val; omega
    | ⟨2, _⟩ => show win0_0.index t (2 : Fin 4) * 256 + 1 * (j 2).val = win0_2.index t (2 : Fin 4) * 256 + 1 * (j 2).val; omega
    | ⟨3, _⟩ => show win0_0.index t (3 : Fin 4) * 512 + 1 * (j 3).val = win0_2.index t (3 : Fin 4) * 512 + 1 * (j 3).val; omega
  -- the count block at the matching place of the pixel array
  have h1 : ((cfg0.win 1).blk t).view.emb (ix3 (0 : Fin 1)
        (⟨(((win0 2).xinj (grid0.coords t) j) 2).val, (((win0 2).xinj (grid0.coords t) j) 2).isLt⟩ : Fin 256)
        (⟨(((win0 2).xinj (grid0.coords t) j) 3).val, (((win0 2).xinj (grid0.coords t) j) 3).isLt⟩ : Fin 512))
      = ix3 (⟨(((View.whole main_v95).slice ((win0 2).rect t)).emb j 1).val, (((View.whole main_v95).slice ((win0 2).rect t)).emb j 1).isLt⟩ : Fin 8)
          (⟨(((View.whole main_v95).slice ((win0 2).rect t)).emb j 2).val, (((View.whole main_v95).slice ((win0 2).rect t)).emb j 2).isLt⟩ : Fin 512)
          (⟨(((View.whole main_v95).slice ((win0 2).rect t)).emb j 3).val, (((View.whole main_v95).slice ((win0 2).rect t)).emb j 3).isLt⟩ : Fin 512) := by
    funext a; apply Fin.ext
    match a with
    | ⟨0, _⟩ => show win0_1.index t (0 : Fin 3) * 1 + 1 * 0 = win0_2.index t (1 : Fin 4) * 1 + 1 * (j 1).val; omega
    | ⟨1, _⟩ => show win0_1.index t (1 : Fin 3) * 256 + 1 * (j 2).val = win0_2.index t (2 : Fin 4) * 256 + 1 * (j 2).val; omega
    | ⟨2, _⟩ => show win0_1.index t (2 : Fin 3) * 512 + 1 * (j 3).val = win0_2.index t (3 : Fin 4) * 512 + 1 * (j 3).val; omega
  rw [h0, h1]

/-- An index of the output array is in point `t`'s block iff each coordinate is in the block's range on its axis. -/
theorem mem_blk (t : Fin cfg0.N) (i : S4x8x512x512.Idx) :
    i ∈ ((cfg0.win 2).blk t).view.set ↔ ∀ a : Fin 4, win0_2.index t a * S4x1x256x512.size a ≤ (i a).val
      ∧ (i a).val < win0_2.index t a * S4x1x256x512.size a + S4x1x256x512.size a := by
  show i ∈ ((View.whole main_v95).slice (win0_2.rect t)).set ↔ _
  rw [View.set_slice_whole, Rect.mem_set_unit]
  exact Iff.rfl

/-- The sixteen blocks cover the output: pixel row h of image b lies in the block of grid point (b, h / 256). -/
theorem cover (i : S4x8x512x512.Idx) :
    ∃ t : Fin cfg0.N, (cfg0.win 2).flush t = true ∧ i ∈ ((cfg0.win 2).blk t).view.set := by
  have hi0 : (i 0).val < 4 := (i 0).isLt
  have hi1 : (i 1).val < 8 := (i 1).isLt
  have hi2 : (i 2).val < 512 := (i 2).isLt
  have hi3 : (i 3).val < 512 := (i 3).isLt
  obtain ⟨t, ht⟩ := idx_onto ⟨(i 1).val, hi1⟩ ⟨(i 2).val / 256, by omega⟩
  have q0 : win0_2.index t (0 : Fin 4) = 0 := congrFun ht 0
  have q1 : win0_2.index t (1 : Fin 4) = (i 1).val := congrFun ht 1
  have q2 : win0_2.index t (2 : Fin 4) = (i 2).val / 256 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 4 ≤ (i 0).val ∧ (i 0).val < win0_2.index t (0 : Fin 4) * 4 + 4; omega
  | ⟨1, _⟩ => show win0_2.index t (1 : Fin 4) * 1 ≤ (i 1).val ∧ (i 1).val < win0_2.index t (1 : Fin 4) * 1 + 1; omega
  | ⟨2, _⟩ => show win0_2.index t (2 : Fin 4) * 256 ≤ (i 2).val ∧ (i 2).val < win0_2.index t (2 : Fin 4) * 256 + 256; omega
  | ⟨3, _⟩ => show win0_2.index t (3 : Fin 4) * 512 ≤ (i 3).val ∧ (i 3).val < win0_2.index t (3 : Fin 4) * 512 + 512; omega

/-- The output array after the launch. -/
theorem final (c : Dev nD) : (dats m 0 c).arrAt 2 cfg0.N = outArr (sarr m c) (narr m c) :=
  (dats m 0 c).arrAt_eq_of_cover 2 (outArr (sarr m c) (narr m c)) (fun t _ => flushed_eq m c t) (cover)

end Cert.KernelIdeal.Body

end
-- ==== Proof.KTerms.lean ====
/-
  The values the kernel's program computes before its one launch, as functions of the argument arrays: the feature
  table transposed with a zero column appended; a slot of the point indices; the indicator "index > 0" as a float; the
  remap of a negative index to the zero column; the filling gather of the table's columns (the gathered column where the
  index is in 0 … 100000, the fill value elsewhere); and the two running sums over the eight slots, the summed features
  and the count. Each definition spells the operations in the program's own order, for any float instance.
-/
import proofs.«417189_j13855564497223_3_alg».proof.KernelIdeal

noncomputable section

namespace Cert.KernelIdeal.Prefix

open Idealize.ShloMosaic Cert.KernelIdeal

variable {F : FTy → Type} [FloatOps F] [Facts]
open Facts₀ Facts

/-- The feature table transposed, a zero column appended. -/
def tableT (x2 : FVec F S100000x4 .f32) : FVec F S4x100001 .f32 :=
  concatenate S4x100001 1 [⟨S4x100000, transpose S4x100000 [1, 0] x2 transposes_S100000x4_S4x100000_1_0⟩,
    ⟨S4x1, broadcastInDim S4x1 ![] bcast_S_S4x1 (constant S_ .f32 0x00000000#32)⟩] concatenates_S4x100000_S4x1_S4x100001_d1

/-- Slot `k` of the point indices, one index per pixel. -/
def slot (k : ℕ) (hs : S8x512x512x8.Slices ![0, 0, 0, k] S8x512x512x1) (x0 : IVec S8x512x512x8 32) : IVec S8x512x512 32 :=
  shapeCast _ (extractStridedSlice S8x512x512x1 ![0, 0, 0, k] x0 hs) shapeCasts_S8x512x512x1_S8x512x512

/-- "index > 0" as a float. -/
def valid (x : IVec S8x512x512 32) : FVec F S8x512x512 .f32 :=
  uitofp .f32 (cmpi .sgt x (broadcastInDim S8x512x512 ![] bcast_S_S8x512x512 (constantI S_ 32 0#32)))

/-- A negative index sent to the zero column. -/
def remapV (x : IVec S8x512x512 32) : IVec S8x512x512 32 :=
  select (cmpi .slt x (broadcastInDim S8x512x512 ![] bcast_S_S8x512x512 (constantI S_ 32 0#32)))
    (broadcastInDim S8x512x512 ![] bcast_S_S8x512x512 (id (constantI S_ 32 100000#32))) x

/-- The start indices of the gather: a negative index wrapped by the table's width, then one trailing unit axis. -/
def starts (g : IVec S8x512x512 32) : IVec S8x512x512x1 32 :=
  broadcastInDim S8x512x512x1 ![0, 1, 2] bcast_S8x512x512_S8x512x512x1_0_1_2
    (select (cmpi .slt g (broadcastInDim S8x512x512 ![] bcast_S_S8x512x512 (constantI S_ 32 0#32)))
      (addi g (broadcastInDim S8x512x512 ![] bcast_S_S8x512x512 (constantI S_ 32 100001#32))) g)

/-- Where the start index lies in 0 … 100000. -/
def inRange (i5 : IVec S8x512x512x1 32) : IVec S8x512x512 1 :=
  Host.reduce IntOp.andi
    (andi (cmpi .sge i5 (broadcastInDim S8x512x512x1 ![] bcast_S_S8x512x512x1 (constantI S_ 32 0#32)))
      (cmpi .sle i5 (broadcastInDim S8x512x512x1 ![0, 1, 2, 3] bcast_S1x1x1x1_S8x512x512x1_0_1_2_3
        (broadcastInDim S1x1x1x1 ![3] bcast_S1_S1x1x1x1_3 (constantI S1 32 100000#32)))))
    (constantI S_ 1 1#1) reducesTo_S8x512x512x1_S8x512x512_d3 h_S_

/-- The filling gather of the table's columns. -/
def takeRows (tab : FVec F S4x100001 .f32) (g : IVec S8x512x512 32) : FVec F S4x8x512x512 .f32 :=
  select (broadcastInDim S4x8x512x512 ![1, 2, 3] bcast_S8x512x512_S4x8x512x512_1_2_3 (inRange (starts g)))
    (Host.gather gather_S4x100001_S8x512x512x1_S4x8x512x512_0_1_n_n_1_3_41 tab (starts g))
    (broadcastInDim S4x8x512x512 ![] bcast_S_S4x8x512x512 (constant S_ .f32 0x7FC00000#32))

/-- The summed features, channel-major: the eight slots' gathered columns added up from zero, in slot order. -/
def summedT (x0 : IVec S8x512x512x8 32) (x2 : FVec F S100000x4 .f32) : FVec F S4x8x512x512 .f32 :=
  (addf (addf (addf (addf (addf (addf (addf (addf (broadcastInDim S4x8x512x512 ![] bcast_S_S4x8x512x512 (constant S_ .f32 0x00000000#32))
    (takeRows (tableT x2) (remapV (slot 0 slices_S8x512x512x8_S8x512x512x1_0_0_0_0 x0))))
    (takeRows (tableT x2) (remapV (slot 1 slices_S8x512x512x8_S8x512x512x1_0_0_0_1 x0))))
    (takeRows (tableT x2) (remapV (slot 2 slices_S8x512x512x8_S8x512x512x1_0_0_0_2 x0))))
    (takeRows (tableT x2) (remapV (slot 3 slices_S8x512x512x8_S8x512x512x1_0_0_0_3 x0))))
    (takeRows (tableT x2) (remapV (slot 4 slices_S8x512x512x8_S8x512x512x1_0_0_0_4 x0))))
    (takeRows (tableT x2) (remapV (slot 5 slices_S8x512x512x8_S8x512x512x1_0_0_0_5 x0))))
    (takeRows (tableT x2) (remapV (slot 6 slices_S8x512x512x8_S8x512x512x1_0_0_0_6 x0))))
    (takeRows (tableT x2) (remapV (slot 7 slices_S8x512x512x8_S8x512x512x1_0_0_0_7 x0))))

/-- The count: the eight slots' indicators added up from zero, in slot order. -/
def countT (x0 : IVec S8x512x512x8 32) : FVec F S8x512x512 .f32 :=
  (addf (addf (addf (addf (addf (addf (addf (addf (broadcastInDim S8x512x512 ![] bcast_S_S8x512x512 (constant S_ .f32 0x00000000#32))
    (valid (slot 0 slices_S8x512x512x8_S8x512x512x1_0_0_0_0 x0)))
    (valid (slot 1 slices_S8x512x512x8_S8x512x512x1_0_0_0_1 x0)))
    (valid (slot 2 slices_S8x512x512x8_S8x512x512x1_0_0_0_2 x0)))
    (valid (slot 3 slices_S8x512x512x8_S8x512x512x1_0_0_0_3 x0)))
    (valid (slot 4 slices_S8x512x512x8_S8x512x512x1_0_0_0_4 x0)))
    (valid (slot 5 slices_S8x512x512x8_S8x512x512x1_0_0_0_5 x0)))
    (valid (slot 6 slices_S8x512x512x8_S8x512x512x1_0_0_0_6 x0)))
    (valid (slot 7 slices_S8x512x512x8_S8x512x512x1_0_0_0_7 x0)))

end Cert.KernelIdeal.Prefix

end
-- ==== Proof.KHeadOps.lean ====
/-
  The kernel program's first host operations, in two runs: those through the padded table (the transpose of the feature
  table, the zero column, their join), and those after it up to the first call. And the summed features as a function of
  the point indices and ANY table — the same eight gathered columns added up from zero — so that the table can be read on
  its own.
-/
import proofs.«417189_j13855564497223_3_alg».proof.Proof.KTerms

noncomputable section

namespace Cert.KernelIdeal.Prefix

open Idealize.ShloMosaic Cert.KernelIdeal

variable {F : FTy → Type} [FloatOps F] [Facts]
open Facts₀ Facts

/-- The first operations of the program, through the padded table. -/
abbrev headOps : List (HloOp τ sig (Elt F)) :=
  [ StableHlo.unary main_arg1 main_v0 ((extractStridedSlice S1x512x512x1 ![0, 0, 0, 0] · slices_S8x512x512x8_S1x512x512x1_0_0_0_0) : (⟨S8x512x512x8, .f32⟩ : BufTy).Contents (Elt F) → (⟨S1x512x512x1, .f32⟩ : BufTy).Contents (Elt F)),
    StableHlo.reshape main_v0 main_v1 rfl shapeCasts_S1x512x512x1_S512x512x1,
    StableHlo.unary main_arg2 main_v2 ((transpose S4x100000 [1, 0] · transposes_S100000x4_S4x100000_1_0) : (⟨S100000x4, .f32⟩ : BufTy).Contents (Elt F) → (⟨S4x100000, .f32⟩ : BufTy).Contents (Elt F)),
    StableHlo.nullary main_cst (constant S_ .f32 0x00000000#32),
    StableHlo.unary main_cst main_v3 (broadcastInDim S4x1 ![] bcast_S_S4x1 : (⟨S_, .f32⟩ : BufTy).Contents (Elt F) → (⟨S4x1, .f32⟩ : BufTy).Contents (Elt F)),
    StableHlo.binary main_v2 main_v3 main_v4 ((fun a b => concatenate S4x100001 1 [⟨S4x100000, a⟩, ⟨S4x1, b⟩] concatenates_S4x100000_S4x1_S4x100001_d1) : (⟨S4x100000, .f32⟩ : BufTy).Contents (Elt F) → (⟨S4x1, .f32⟩ : BufTy).Contents (Elt F) → (⟨S4x100001, .f32⟩ : BufTy).Contents (Elt F)) ]

/-- The operations that follow them, up to the first call. -/
abbrev nextOps : List (HloOp τ sig (Elt F)) :=
  [ StableHlo.nullary main_cst_0 (constant S_ .f32 0x00000000#32),
    StableHlo.unary main_cst_0 main_v5 (broadcastInDim S4x8x512x512 ![] bcast_S_S4x8x512x512 : (⟨S_, .f32⟩ : BufTy).Contents (Elt F) → (⟨S4x8x512x512, .f32⟩ : BufTy).Contents (Elt F)),
    StableHlo.nullary main_cst_1 (constant S_ .f32 0x00000000#32),
    StableHlo.unary main_cst_1 main_v6 (broadcastInDim S8x512x512 ![] bcast_S_S8x512x512 : (⟨S_, .f32⟩ : BufTy).Contents (Elt F) → (⟨S8x512x512, .f32⟩ : BufTy).Contents (Elt F)),
    StableHlo.unary main_arg0 main_v7 ((extractStridedSlice S8x512x512x1 ![0, 0, 0, 0] · slices_S8x512x512x8_S8x512x512x1_0_0_0_0) : (⟨S8x512x512x8, .i32⟩ : BufTy).Contents (Elt F) → (⟨S8x512x512x1, .i32⟩ : BufTy).Contents (Elt F)),
    StableHlo.reshape main_v7 main_v8 rfl shapeCasts_S8x512x512x1_S8x512x512,
    StableHlo.nullary main_c (constantI S_ 32 0#32),
    StableHlo.unary main_c main_v9 (broadcastInDim S8x512x512 ![] bcast_S_S8x512x512 : (⟨S_, .i32⟩ : BufTy).Contents (Elt F) → (⟨S8x512x512, .i32⟩ : BufTy).Contents (Elt F)),
    StableHlo.binary main_v8 main_v9 main_v10 (cmpi .sgt : (⟨S8x512x512, .i32⟩ : BufTy).Contents (Elt F) → (⟨S8x512x512, .i32⟩ : BufTy).Contents (Elt F) → (⟨S8x512x512, .i1⟩ : BufTy).Contents (Elt F)),
    StableHlo.unary main_v10 main_v11 (uitofp .f32 : (⟨S8x512x512, .i1⟩ : BufTy).Contents (Elt F) → (⟨S8x512x512, .f32⟩ : BufTy).Contents (Elt F)),
    StableHlo.nullary main_c_2 (constantI S_ 32 0#32),
    StableHlo.unary main_c_2 main_v12 (broadcastInDim S8x512x512 ![] bcast_S_S8x512x512 : (⟨S_, .i32⟩ : BufTy).Contents (Elt F) → (⟨S8x512x512, .i32⟩ : BufTy).Contents (Elt F)),
    StableHlo.binary main_v8 main_v12 main_v13 (cmpi .slt : (⟨S8x512x512, .i32⟩ : BufTy).Contents (Elt F) → (⟨S8x512x512, .i32⟩ : BufTy).Contents (Elt F) → (⟨S8x512x512, .i1⟩ : BufTy).Contents (Elt F)),
    StableHlo.nullary main_c_3 (constantI S_ 32 100000#32) ]

/-- The summed features over a given table. -/
def summedTab (x0 : IVec S8x512x512x8 32) (tab : FVec F S4x100001 .f32) : FVec F S4x8x512x512 .f32 :=
  (addf (addf (addf (addf (addf (addf (addf (addf (broadcastInDim S4x8x512x512 ![] bcast_S_S4x8x512x512 (constant S_ .f32 0x00000000#32))
    (takeRows tab (remapV (slot 0 slices_S8x512x512x8_S8x512x512x1_0_0_0_0 x0))))
    (takeRows tab (remapV (slot 1 slices_S8x512x512x8_S8x512x512x1_0_0_0_1 x0))))
    (takeRows tab (remapV (slot 2 slices_S8x512x512x8_S8x512x512x1_0_0_0_2 x0))))
    (takeRows tab (remapV (slot 3 slices_S8x512x512x8_S8x512x512x1_0_0_0_3 x0))))
    (takeRows tab (remapV (slot 4 slices_S8x512x512x8_S8x512x512x1_0_0_0_4 x0))))
    (takeRows tab (remapV (slot 5 slices_S8x512x512x8_S8x512x512x1_0_0_0_5 x0))))
    (takeRows tab (remapV (slot 6 slices_S8x512x512x8_S8x512x512x1_0_0_0_6 x0))))
    (takeRows tab (remapV (slot 7 slices_S8x512x512x8_S8x512x512x1_0_0_0_7 x0))))

theorem summedT_eq (x0 : IVec S8x512x512x8 32) (x2 : FVec F S100000x4 .f32) :
    summedT x0 x2 = summedTab x0 (tableT x2) := rfl

end Cert.KernelIdeal.Prefix

end
-- ==== Proof.LibHostPrefix.lean ====
/-
  A general fact for reading what a list of host operations leaves in a buffer when the program calls a function.

  `ofBuf_toBuf`: a value written through a typed reference and read back through a typed reference to the same buffer is
  the value itself — whatever the two references' proofs. Inside a function the program calls, every intermediate value
  is written and read through such references; cancelling these pairs first leaves only the transports at the call's
  boundary (its arguments and its result), few enough to remove one by one. Together with the library's fact that
  operations run one list after another are their concatenation run as one (so that a long list can be cut, for instance
  just after an operation that joins computed pieces into one array, whose result is then read on its own), this reads a
  prefix of several hundred operations through a dozen calls.
-/
import Idealize.ShloMosaic.Lib.StableHlo.Run

noncomputable section

namespace Cert.Lib.HostPrefix

open Idealize.ShloMosaic Idealize.ShloMosaic.StableHlo

variable {sig : RefSig} {Val : EltTy → Type}

/-- A value written through a typed reference and read back through one of the same buffer is the value. -/
theorem ofBuf_toBuf {T : BufTy} (r : Ref sig .tc) (h h' : r.ty = T) (p p' : r.space ≠ .host)
    (q q' : r.isScoped = false) (v : T.Contents Val) :
    (TRef.of r h p q).ofBuf ((TRef.of r h' p' q').toBuf v) = v := by
  subst h
  rfl

end Cert.Lib.HostPrefix

end
-- ==== Proof.KHostTerm.lean ====
/-
  What the kernel's launch finds in its two input arrays: the host operations before the launch leave the summed
  features and the count in them, as the terms of the argument arrays that the prefix definitions spell. Every buffer of
  the prefix is written once, so each array's contents are its operation's function of its operands' contents, down to
  the arguments. The padded table is read on its own, just after the operation that joins its two pieces; the rest of the
  prefix is read over the contents at that moment.
-/
import proofs.«417189_j13855564497223_3_alg».proof.Proof.Gen.KernelIdeal.Frame
import proofs.«417189_j13855564497223_3_alg».proof.Proof.KTerms
import proofs.«417189_j13855564497223_3_alg».proof.Proof.KHeadOps
import proofs.«417189_j13855564497223_3_alg».proof.Proof.LibHostPrefix
import Idealize.ShloMosaic.Lib.StableHlo.Run

set_option maxRecDepth 16384

noncomputable section

namespace Cert.KernelIdeal.Prefix

open Idealize.ShloMosaic Idealize.ShloMosaic.TcCoe Idealize.ShloMosaic.StableHlo Idealize.SL.Sem Cert.KernelIdeal Cert.KernelIdeal.Gen
open Cert.Lib.HostPrefix (ofBuf_toBuf)

variable {F : FTy → Type} [FloatOps F]
variable (m : (ℓ : Loc nD τ sig) → Buf (Elt F) ℓ)

/-- The program's first run of host operations is those through the padded table, then the rest. -/
theorem hostOps0_split : (hostOps0 : List (HloOp τ sig (Elt F))) = headOps ++ nextOps := rfl

/-- The padded table once it is built. -/
theorem head_table (V : Valuation τ sig (Elt F)) :
    after headOps V (Proc.devRef .tc main_v4) = tableT (V (Proc.devRef .tc main_arg2)) := by
  after_results
  rfl

/-- The point indices are untouched by the first operations. -/
theorem head_arg0 (V : Valuation τ sig (Elt F)) :
    after headOps V (Proc.devRef .tc main_arg0) = V (Proc.devRef .tc main_arg0) := by
  after_results

set_option maxHeartbeats 16000000 in
/-- The summed features over the contents `W` at the moment the table is built. -/
theorem rest_summed (W : Valuation τ sig (Elt F)) :
    after (nextOps ++ List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) W (Proc.devRef .tc main_v93)
      = summedTab (W (Proc.devRef .tc main_arg0)) (W (Proc.devRef .tc main_v4)) := by
  simp only [nextOps, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  simp only [ofBuf_toBuf]
  simp only [TRef.ofBuf, TRef.toBuf, cast_eq]
  exact rfl

/-- The summed features as the launch finds them. -/
theorem V_summed (c : Dev nD) :
    V m c main_v93 = summedT (m ((c : Thread nD τ).loc main_arg0)) (m ((c : Thread nD τ).loc main_arg2)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) (Proc.devRef .tc main_v93) = _
  rw [List.flatten_cons, hostOps0_split, List.append_assoc, after_append, rest_summed, head_table, head_arg0, summedT_eq]

set_option maxHeartbeats 16000000 in
/-- The count as the launch finds it. -/
theorem V_count (c : Dev nD) :
    V m c main_v94 = countT (m ((c : Thread nD τ).loc main_arg0)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) (Proc.devRef .tc main_v94) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  rfl

end Cert.KernelIdeal.Prefix

end
-- ==== Proof.Words.lean ====
/-
  The point index as a 32-bit word. Both programs first send a negative index to 100000 (the zero row of the padded
  table); under "index ≤ 100000" the result lies in 0 … 100000, so the wrap of a negative start index that indexing adds
  is idle, the range test of a filling gather passes, and the clamp of a gather leaves the row unchanged. A strictly
  positive index is what the count counts.
-/
import proofs.«417189_j13855564497223_3_alg».proof.Proof.Spec
import Idealize.ShloMosaic.Lib.Affine

noncomputable section

namespace Cert.Composite

open Idealize.ShloMosaic

/-- A negative point index sent to the zero row, as a word. -/
def remap (x : BitVec 32) : BitVec 32 := Scalar.select (IntOp.cmpi .slt x 0#32) 100000#32 x

theorem toInt_100000 : (100000#32 : BitVec 32).toInt = 100000 := by decide
theorem toInt_100001 : (100001#32 : BitVec 32).toInt = 100001 := by decide
theorem toInt_zero32 : (0#32 : BitVec 32).toInt = 0 := by decide

/-- The comparison "index > 0" as a number is the indicator the count sums. -/
theorem hit_eq (x : BitVec 32) : (IntOp.cmpi .sgt x 0#32).toNat = hit x := by
  unfold hit
  by_cases h : (0#32 : BitVec 32).toInt < x.toInt
  · rw [IntOp.cmpi_sgt.mpr h, if_pos (by rw [toInt_zero32] at h; exact h)]; rfl
  · have h0 : IntOp.cmpi .sgt x 0#32 = 0#1 := ValueIdx.eq_zero_of_ne_one (fun e => h (IntOp.cmpi_sgt.mp e))
    rw [h0, if_neg (by rw [toInt_zero32] at h; exact h)]; rfl

/-- The remapped word, read signed, is the selected row. -/
theorem remap_toInt (x : BitVec 32) : (remap x).toInt = ((rowOf x : ℕ) : ℤ) := by
  unfold remap rowOf
  by_cases h : x.toInt < 0
  · have h1 : IntOp.cmpi .slt x 0#32 = 1#1 := IntOp.cmpi_slt.mpr (by rw [toInt_zero32]; exact h)
    rw [h1, ValueIdx.select_one, if_pos h, toInt_100000]; rfl
  · have h0 : IntOp.cmpi .slt x 0#32 = 0#1 :=
      ValueIdx.eq_zero_of_ne_one (fun e => h (by have := IntOp.cmpi_slt.mp e; rw [toInt_zero32] at this; exact this))
    rw [h0, ValueIdx.select_zero, if_neg h]
    omega

/-- Under the range precondition the selected row is a row of the padded table. -/
theorem rowOf_le (x : BitVec 32) (hx : x.toInt ≤ 100000) : rowOf x ≤ 100000 := by
  unfold rowOf; split <;> omega

theorem remap_nonneg (x : BitVec 32) : 0 ≤ (remap x).toInt := by rw [remap_toInt]; omega

/-- The wrap of a negative start index is idle on a remapped word. -/
theorem wrap_remap (x : BitVec 32) :
    Scalar.select (IntOp.cmpi .slt (remap x) 0#32) (IntOp.addi (remap x) 100001#32) (remap x) = remap x := by
  have h0 : IntOp.cmpi .slt (remap x) 0#32 = 0#1 :=
    ValueIdx.eq_zero_of_ne_one (fun e => by
      have := IntOp.cmpi_slt.mp e; rw [toInt_zero32] at this; have := remap_nonneg x; omega)
  rw [h0, ValueIdx.select_zero]

/-- The range test of the filling gather passes on a remapped word. -/
theorem inrange_remap (x : BitVec 32) (hx : x.toInt ≤ 100000) :
    IntOp.andi (IntOp.cmpi .sge (remap x) 0#32) (IntOp.cmpi .sle (remap x) 100000#32) = 1#1 := by
  have h1 : IntOp.cmpi .sge (remap x) 0#32 = 1#1 := IntOp.cmpi_sge.mpr (by rw [toInt_zero32]; exact remap_nonneg x)
  have h2 : IntOp.cmpi .sle (remap x) 100000#32 = 1#1 :=
    IntOp.cmpi_sle.mpr (by rw [toInt_100000, remap_toInt]; have := rowOf_le x hx; omega)
  rw [h1, h2]; rfl

/-- The clamp of a gather leaves the selected row unchanged. -/
theorem clamp_remap (x : BitVec 32) (hx : x.toInt ≤ 100000) : min (remap x).toInt.toNat 100000 = rowOf x := by
  rw [remap_toInt]; have := rowOf_le x hx; omega

end Cert.Composite

end
-- ==== Proof.KHostRead.lean ====
/-
  The kernel's two host sums read at a pixel: the summed features are the sum of the eight selected rows of the padded
  table (every index in range, so the filling gather never fills), and the count is the number of strictly positive
  indices, as a real.
-/
import proofs.«417189_j13855564497223_3_alg».proof.Proof.KTerms
import proofs.«417189_j13855564497223_3_alg».proof.Proof.Words
import Idealize.ShloMosaic.Lib.Pipeline.Value
import Idealize.ShloMosaic.Lib.ReduceAll
import Idealize.ShloMosaic.PureOps.Ideal.Laws

noncomputable section

open scoped BigOperators

namespace Cert.KernelIdeal.Prefix

open Idealize.ShloMosaic Idealize.ShloMosaic.ValueIdx Cert.KernelIdeal

variable [Facts]
open Facts₀ Facts

/-- A slot of the point indices at a pixel is the pixel's index in that slot. -/
theorem slot_apply (k : ℕ) (hk : k < 8) (hs : S8x512x512x8.Slices ![0, 0, 0, k] S8x512x512x1) (x0 : IVec S8x512x512x8 32)
    (b : Fin 8) (h w : Fin 512) : slot k hs x0 (ix3 b h w) = x0 (ix4 b h w ⟨k, hk⟩) := by
  unfold slot
  refine (shapeCast_apply _ shapeCasts_S8x512x512x1_S8x512x512 (ix3 b h w) (ix4 b h w (0 : Fin 1)) ?_).trans ?_
  · rw [Shape.rowMajor_val_four, Shape.rowMajor_val_three]
    show ((b.val * 512 + h.val) * 512 + w.val) * 1 + 0 = (b.val * 512 + h.val) * 512 + w.val
    omega
  · refine extractStridedSlice_apply _ x0 hs (ix4 b h w (0 : Fin 1)) (ix4 b h w ⟨k, hk⟩) ?_
    intro a
    match a with
    | ⟨0, _⟩ => show b.val = 0 + b.val; omega
    | ⟨1, _⟩ => show h.val = 0 + h.val; omega
    | ⟨2, _⟩ => show w.val = 0 + w.val; omega
    | ⟨3, _⟩ => show k = k + 0; omega

/-- The indicator "index > 0" at a pixel, as an extended real. -/
theorem valid_apply (x : IVec S8x512x512 32) (j : S8x512x512.Idx) :
    valid (F := Ideal) x j = (((Cert.Composite.hit (x j) : ℕ) : ℝ) : EReal) := by
  show (((IntOp.cmpi .sgt (x j) 0#32).toNat : ℝ) : EReal) = _
  rw [Cert.Composite.hit_eq]

/-- The remap at a pixel is the remap of the pixel's word. -/
theorem remapV_apply (x : IVec S8x512x512 32) (j : S8x512x512.Idx) :
    remapV x j = Cert.Composite.remap (x j) := rfl

/-- The start index of a pixel: the wrap select of the pixel's word. -/
theorem starts_apply (g : IVec S8x512x512 32) (b : Fin 8) (h w : Fin 512) (z : Fin 1) :
    starts g (ix4 b h w z)
      = Scalar.select (IntOp.cmpi .slt (g (ix3 b h w)) 0#32) (IntOp.addi (g (ix3 b h w)) 100001#32) (g (ix3 b h w)) := by
  unfold starts
  refine (broadcastInDim_apply _ bcast_S8x512x512_S8x512x512x1_0_1_2 _ (ix4 b h w z) (ix3 b h w) ?_).trans rfl
  intro a
  match a with
  | ⟨0, _⟩ => show b.val = if (8 : ℕ) = 1 then 0 else b.val; rw [if_neg (by decide)]
  | ⟨1, _⟩ => show h.val = if (512 : ℕ) = 1 then 0 else h.val; rw [if_neg (by decide)]
  | ⟨2, _⟩ => show w.val = if (512 : ℕ) = 1 then 0 else w.val; rw [if_neg (by decide)]

/-- On a remapped word the wrap is idle: the start index is the remapped word. -/
theorem starts_remapV (x : IVec S8x512x512 32) (b : Fin 8) (h w : Fin 512) (z : Fin 1) :
    starts (remapV x) (ix4 b h w z) = Cert.Composite.remap (x (ix3 b h w)) := by
  rw [starts_apply, remapV_apply]
  exact Cert.Composite.wrap_remap _

/-- One-bit words: `and` with 1 on the right is the identity. -/
private theorem andi_one_right : ∀ c : BitVec 1, IntOp.andi c 1#1 = c := by decide

/-- A fold over the one coordinate of a unit axis is one application. -/
private theorem fold_fin_one {β : Type} (op : β → β → β) [Std.Commutative op] [Std.Associative op] (e : β) (f : Fin 1 → β) :
    Finset.fold op e f (Finset.univ : Finset (Fin 1)) = op (f 0) e := by
  rw [Finset.univ_unique, Finset.fold_singleton]
  rfl

/-- A reduce by `and` from 1 over the trailing unit axis reads the one element over the pixel. -/
private theorem reduce_and_unit (x : S8x512x512x1.Idx → BitVec 1) (b : Fin 8) (h w : Fin 512) :
    Host.reduce IntOp.andi x (constantI S_ 1 1#1) reducesTo_S8x512x512x1_S8x512x512_d3 h_S_ (ix3 b h w)
      = x (ix4 b h w (0 : Fin 1)) := by
  have hr : S8x512x512x1.Reduces [(3 : Fin 4)] S8x512x512 := by decide
  have hl : hr.lift (ix3 b h w) (0 : Fin 1) = ix4 b h w (0 : Fin 1) := by
    funext a
    match a with
    | ⟨0, _⟩ => rfl
    | ⟨1, _⟩ => rfl
    | ⟨2, _⟩ => rfl
    | ⟨3, _⟩ => rfl
  refine (Host.reduce_eq_fold_single IntOp.andi x _ reducesTo_S8x512x512x1_S8x512x512_d3 hr h_S_ (ix3 b h w)).trans ?_
  refine (fold_fin_one IntOp.andi (1#1) _).trans ?_
  rw [andi_one_right]
  exact congrArg x hl

/-- The range test at a pixel: the one start index of the pixel compared with 0 and with 100000. -/
theorem inRange_apply (i5 : IVec S8x512x512x1 32) (b : Fin 8) (h w : Fin 512) :
    inRange i5 (ix3 b h w)
      = IntOp.andi (IntOp.cmpi .sge (i5 (ix4 b h w (0 : Fin 1))) 0#32) (IntOp.cmpi .sle (i5 (ix4 b h w (0 : Fin 1))) 100000#32) :=
  (reduce_and_unit _ b h w).trans rfl

/-- On a remapped word under the range precondition the range test passes. -/
theorem inRange_starts_remapV (x : IVec S8x512x512 32) (b : Fin 8) (h w : Fin 512) (hx : (x (ix3 b h w)).toInt ≤ 100000) :
    inRange (starts (remapV x)) (ix3 b h w) = 1#1 := by
  rw [inRange_apply, starts_remapV]
  exact Cert.Composite.inrange_remap _ hx

/-- The gather's dimension numbers, for short. -/
private abbrev G := gather_S4x100001_S8x512x512x1_S4x8x512x512_0_1_n_n_1_3_41

/-- The gather of the table's columns at (c, b, h, w): column `c` of the row the pixel's start index names, clamped. -/
theorem gather_apply {α : Type} (tab : S4x100001.Idx → α) (st : IVec S8x512x512x1 32) (c : Fin 4) (b : Fin 8) (h w : Fin 512) :
    Host.gather gather_S4x100001_S8x512x512x1_S4x8x512x512_0_1_n_n_1_3_41 tab st (ix4 c b h w)
      = tab (ix2 c ⟨min (st (ix4 b h w (0 : Fin 1))).toInt.toNat 100000, by omega⟩) := by
  unfold Host.gather
  refine congrArg tab ?_
  funext a
  refine Fin.ext ?_
  match a with
  | ⟨0, _⟩ =>
    show G.start (ix4 c b h w) st 0 + G.batchCoord (ix4 c b h w) 0 + G.offCoord (ix4 c b h w) 0 = c.val
    have h01 : (0 : Fin 2) ∉ [(1 : Fin 2)] := by decide
    have hs : G.start (ix4 c b h w) st 0 = 0 := by
      unfold GatherDims.start
      rw [dif_neg (show (0 : Fin 2) ∉ G.startIndexMap from h01)]
    have ho : G.offCoord (ix4 c b h w) 0 = c.val := by
      unfold GatherDims.offCoord
      rw [dif_pos ((GatherDims.mem_sKept G 0).mpr ⟨h01, List.not_mem_nil⟩)]
      rfl
    rw [GatherDims.batchCoord_eq_zero _ _ _ List.not_mem_nil, hs, ho]
    omega
  | ⟨1, _⟩ =>
    show G.start (ix4 c b h w) st 1 + G.batchCoord (ix4 c b h w) 1 + G.offCoord (ix4 c b h w) 1
      = min (st (ix4 b h w (0 : Fin 1))).toInt.toNat 100000
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (1 : Fin 2) ∈ G.startIndexMap from List.mem_singleton.mpr rfl)]
    have hsi : G.siIdx (ix4 c b h w) ⟨List.idxOf (1 : Fin 2) G.startIndexMap,
        List.idxOf_lt_length_iff.2 (List.mem_singleton.mpr rfl)⟩ = ix4 b h w (0 : Fin 1) := by
      funext e
      refine Fin.ext ?_
      match e with
      | ⟨0, _⟩ => rfl
      | ⟨1, _⟩ => rfl
      | ⟨2, _⟩ => rfl
      | ⟨3, _⟩ => rfl
    rw [hsi]
    rfl

/-- The transposed table with its zero column at (c, r): the padded table's row `r`, channel `c`. -/
theorem tableT_apply (x2 : FVec Ideal S100000x4 .f32) (c : Fin 4) (r : Fin 100001) :
    tableT x2 (ix2 c r) = Cert.Composite.padded x2 r.val c := by
  unfold tableT Cert.Composite.padded
  by_cases hr : r.val < 100000
  · rw [dif_pos hr]
    refine (concatenate_pair_apply_left (t := S4x100001) (s₁ := S4x100000) (s₂ := S4x1) (1 : Fin 2) _ _
      concatenates_S4x100000_S4x1_S4x100001_d1 (ix2 c r) (rfl : S4x100000.rank = S4x100001.rank)
      (ix2 c (⟨r.val, hr⟩ : Fin 100000)) ?_).trans ?_
    · intro a
      match a with
      | ⟨0, _⟩ => rfl
      | ⟨1, _⟩ => rfl
    · refine transpose_apply [1, 0] x2 transposes_S100000x4_S4x100000_1_0 (ix2 c (⟨r.val, hr⟩ : Fin 100000))
        (ix2 (⟨r.val, hr⟩ : Fin 100000) c) ?_
      intro a
      match a with
      | ⟨0, _⟩ => rfl
      | ⟨1, _⟩ => rfl
  · rw [dif_neg hr]
    refine (concatenate_pair_apply_right (t := S4x100001) (s₁ := S4x100000) (s₂ := S4x1) (1 : Fin 2) _ _
      concatenates_S4x100000_S4x1_S4x100001_d1 (ix2 c r) (rfl : S4x100000.rank = S4x100001.rank)
      (rfl : S4x1.rank = S4x100001.rank) (ix2 c (0 : Fin 1)) ?_ ?_).trans ?_
    · intro a ha
      match a with
      | ⟨0, _⟩ => rfl
      | ⟨1, _⟩ => exact absurd rfl ha
    · show 0 + 100000 = r.val
      have := r.isLt
      omega
    · show Ideal.ofBits .f32 0x00000000#32 = 0
      exact Ideal.ofBits_zero_f32

/-- Where the range test passes, the filling gather is the gather: the fill value is not selected. -/
theorem takeRows_apply (tab : FVec Ideal S4x100001 .f32) (g : IVec S8x512x512 32) (c : Fin 4) (b : Fin 8) (h w : Fin 512)
    (hg : inRange (starts g) (ix3 b h w) = 1#1) :
    takeRows tab g (ix4 c b h w)
      = Host.gather gather_S4x100001_S8x512x512x1_S4x8x512x512_0_1_n_n_1_3_41 tab (starts g) (ix4 c b h w) := by
  have hc : broadcastInDim S4x8x512x512 ![1, 2, 3] bcast_S8x512x512_S4x8x512x512_1_2_3 (inRange (starts g)) (ix4 c b h w)
      = 1#1 := by
    refine (broadcastInDim_apply _ bcast_S8x512x512_S4x8x512x512_1_2_3 _ (ix4 c b h w) (ix3 b h w) ?_).trans hg
    intro a
    match a with
    | ⟨0, _⟩ => show b.val = if (8 : ℕ) = 1 then 0 else b.val; rw [if_neg (by decide)]
    | ⟨1, _⟩ => show h.val = if (512 : ℕ) = 1 then 0 else h.val; rw [if_neg (by decide)]
    | ⟨2, _⟩ => show w.val = if (512 : ℕ) = 1 then 0 else w.val; rw [if_neg (by decide)]
  unfold takeRows
  refine (select_apply _ _ _ (ix4 c b h w)).trans ?_
  rw [hc, select_one]

/-- The filling gather of the padded table at a remapped slot, under the range precondition: the padded table's row the
    pixel's index selects. -/
theorem takeRows_remapV (x2 : FVec Ideal S100000x4 .f32) (x : IVec S8x512x512 32) (c : Fin 4) (b : Fin 8) (h w : Fin 512)
    (hx : (x (ix3 b h w)).toInt ≤ 100000) :
    takeRows (tableT x2) (remapV x) (ix4 c b h w)
      = Cert.Composite.padded x2 (Cert.Composite.rowOf (x (ix3 b h w))) c := by
  refine (takeRows_apply _ _ c b h w (inRange_starts_remapV x b h w hx)).trans ?_
  refine (gather_apply _ _ c b h w).trans ?_
  refine (tableT_apply x2 c _).trans ?_
  show Cert.Composite.padded x2 (min (starts (remapV x) (ix4 b h w (0 : Fin 1))).toInt.toNat 100000) c = _
  rw [starts_remapV, Cert.Composite.clamp_remap _ hx]

/-- A natural sum cast to an extended real through the reals is the sum of the casts. -/
private theorem cast_add_ereal (m n : ℕ) : (((m + n : ℕ) : ℝ) : EReal) = ((m : ℝ) : EReal) + ((n : ℝ) : EReal) := by
  rw [Nat.cast_add, EReal.coe_add]

theorem summedT_apply (x0 : IVec S8x512x512x8 32) (x2 : FVec Ideal S100000x4 .f32)
    (hin : ∀ i, (x0 i).toInt ≤ 100000) (c : Fin 4) (b : Fin 8) (h w : Fin 512) :
    summedT (F := Ideal) x0 x2 (ix4 c b h w) = Cert.Composite.featSum x0 x2 b h w c := by
  have hk : ∀ (k : ℕ) (hk : k < 8) (hs : S8x512x512x8.Slices ![0, 0, 0, k] S8x512x512x1),
      takeRows (tableT x2) (remapV (slot k hs x0)) (ix4 c b h w)
        = Cert.Composite.padded x2 (Cert.Composite.rowOf (x0 (ix4 b h w ⟨k, hk⟩))) c := by
    intro k hk hs
    refine (takeRows_remapV x2 _ c b h w ?_).trans ?_
    · rw [slot_apply k hk]; exact hin _
    · rw [slot_apply k hk]
  have hz : broadcastInDim S4x8x512x512 ![] bcast_S_S4x8x512x512 (constant (F := Ideal) S_ .f32 0x00000000#32) (ix4 c b h w)
      = 0 := by
    show Ideal.ofBits .f32 0x00000000#32 = 0
    exact Ideal.ofBits_zero_f32
  unfold summedT Cert.Composite.featSum
  rw [Fin.sum_univ_eight]
  refine (addf_apply _ _ _).trans (congrArg₂ (· + ·) ?_ (hk 7 (by omega) _))
  refine (addf_apply _ _ _).trans (congrArg₂ (· + ·) ?_ (hk 6 (by omega) _))
  refine (addf_apply _ _ _).trans (congrArg₂ (· + ·) ?_ (hk 5 (by omega) _))
  refine (addf_apply _ _ _).trans (congrArg₂ (· + ·) ?_ (hk 4 (by omega) _))
  refine (addf_apply _ _ _).trans (congrArg₂ (· + ·) ?_ (hk 3 (by omega) _))
  refine (addf_apply _ _ _).trans (congrArg₂ (· + ·) ?_ (hk 2 (by omega) _))
  refine (addf_apply _ _ _).trans (congrArg₂ (· + ·) ?_ (hk 1 (by omega) _))
  refine (addf_apply _ _ _).trans ?_
  rw [hz, zero_add]
  exact hk 0 (by omega) _

theorem countT_apply (x0 : IVec S8x512x512x8 32) (b : Fin 8) (h w : Fin 512) :
    countT (F := Ideal) x0 (ix3 b h w) = (((Cert.Composite.cnt x0 b h w : ℕ) : ℝ) : EReal) := by
  have hk : ∀ (k : ℕ) (hk : k < 8) (hs : S8x512x512x8.Slices ![0, 0, 0, k] S8x512x512x1),
      valid (F := Ideal) (slot k hs x0) (ix3 b h w)
        = (((Cert.Composite.hit (x0 (ix4 b h w ⟨k, hk⟩)) : ℕ) : ℝ) : EReal) := by
    intro k hk hs
    rw [valid_apply, slot_apply k hk]
  have hz : broadcastInDim S8x512x512 ![] bcast_S_S8x512x512 (constant (F := Ideal) S_ .f32 0x00000000#32) (ix3 b h w)
      = 0 := by
    show Ideal.ofBits .f32 0x00000000#32 = 0
    exact Ideal.ofBits_zero_f32
  unfold countT Cert.Composite.cnt
  rw [Fin.sum_univ_eight]
  simp only [cast_add_ereal]
  refine (addf_apply _ _ _).trans (congrArg₂ (· + ·) ?_ (hk 7 (by omega) _))
  refine (addf_apply _ _ _).trans (congrArg₂ (· + ·) ?_ (hk 6 (by omega) _))
  refine (addf_apply _ _ _).trans (congrArg₂ (· + ·) ?_ (hk 5 (by omega) _))
  refine (addf_apply _ _ _).trans (congrArg₂ (· + ·) ?_ (hk 4 (by omega) _))
  refine (addf_apply _ _ _).trans (congrArg₂ (· + ·) ?_ (hk 3 (by omega) _))
  refine (addf_apply _ _ _).trans (congrArg₂ (· + ·) ?_ (hk 2 (by omega) _))
  refine (addf_apply _ _ _).trans (congrArg₂ (· + ·) ?_ (hk 1 (by omega) _))
  refine (addf_apply _ _ _).trans ?_
  rw [hz, zero_add]
  exact hk 0 (by omega) _

end Cert.KernelIdeal.Prefix

end
-- ==== Proof.KHostDepth.lean ====
/-
  The depth map: the first slot of the first image's depth buffer, kept as a [512, 512, 1] array. The kernel's program
  computes it before its launch and nothing later writes it.
-/
import proofs.«417189_j13855564497223_3_alg».proof.Proof.Gen.KernelIdeal.Frame
import Idealize.ShloMosaic.Lib.StableHlo.Run

set_option maxRecDepth 16384

noncomputable section

namespace Cert.KernelIdeal.Prefix

open Idealize.ShloMosaic Idealize.ShloMosaic.TcCoe Idealize.ShloMosaic.StableHlo Idealize.SL.Sem Cert.KernelIdeal Cert.KernelIdeal.Gen

variable {F : FTy → Type} [FloatOps F]
variable (m : (ℓ : Loc nD τ sig) → Buf (Elt F) ℓ)

/-- The depth map of a depth buffer. -/
def depthOf [Facts] (x1 : FVec F S8x512x512x8 .f32) : FVec F S512x512x1 .f32 :=
  shapeCast _ (extractStridedSlice S1x512x512x1 ![0, 0, 0, 0] x1 Facts₀.slices_S8x512x512x8_S1x512x512x1_0_0_0_0)
    Facts₀.shapeCasts_S1x512x512x1_S512x512x1

set_option maxHeartbeats 16000000 in
/-- The depth map as the launch finds it. -/
theorem V_depth (c : Dev nD) :
    V m c main_v1 = depthOf (m ((c : Thread nD τ).loc main_arg1)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) (Proc.devRef .tc main_v1) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  rfl

end Cert.KernelIdeal.Prefix

end
-- ==== Proof.KRun.lean ====
/-
  The kernel's program, run: after the launch one host operation moves the channel axis of the output array last, and
  the result is the image — at pixel (b, h, w), channel c, the summed feature times the pixel's factor, which under the
  two facts about the point indices (every index at most 100000; every pixel with a strictly positive index) is the sum of
  the eight selected rows of the padded table over the root of the count. The second result is the depth map, computed
  before the launch and left alone.
-/
import proofs.«417189_j13855564497223_3_alg».proof.Proof.KArray
import proofs.«417189_j13855564497223_3_alg».proof.Proof.KHostTerm
import proofs.«417189_j13855564497223_3_alg».proof.Proof.KHostRead
import proofs.«417189_j13855564497223_3_alg».proof.Proof.KHostDepth
import Idealize.ShloMosaic.Lib.StableHlo.Run

set_option maxRecDepth 16384

noncomputable section

namespace Cert.KernelIdeal.Body

open Idealize.ShloMosaic Idealize.ShloMosaic.TcCoe Idealize.ShloMosaic.StableHlo Idealize.ShloMosaic.ValueIdx Idealize.SL.Sem
open Cert.KernelIdeal Cert.KernelIdeal.Gen Cert.KernelIdeal.Prefix

variable (m : (ℓ : Loc nD τ sig) → Buf (Elt Ideal) ℓ) (ρ : Dev nD → PrngReg)

/-- The first result after the host operation that follows the launch: the output array with its channel axis last. -/
theorem tail_images (c : Dev nD) :
    Pipeline.afterTail₀ cfgs (dats m) 0 (V0 m) [hostOps1] c main_v96
      = transpose S8x512x512x4 [1, 2, 3, 0] (outArr (sarr m c) (narr m c)) Facts₀.transposes_S4x8x512x512_S8x512x512x4_1_2_3_0 := by
  unfold Pipeline.afterTail₀
  show StableHlo.after hostOps1 _ (Proc.devRef .tc main_v96) = _
  after_results
  exact congrArg (fun a : FVec Ideal S4x8x512x512 .f32 =>
      transpose S8x512x512x4 [1, 2, 3, 0] a Facts₀.transposes_S4x8x512x512_S8x512x512x4_1_2_3_0)
    ((Pipeline.withArrays_arr spec0 launch0.win.arr_inj c _ _ 2).trans (final m c))

/-- The second result: nothing after the launch writes the depth map. -/
theorem tail_depth (c : Dev nD) :
    Pipeline.afterTail₀ cfgs (dats m) 0 (V0 m) [hostOps1] c main_v1 = V m c main_v1 := by
  unfold Pipeline.afterTail₀
  rw [StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v1 (by exact (by decide : ∀ w, Pipeline.arrRef spec0 w ≠ main_v1))]

/-- The transposed output array is the image. -/
theorem images_eq (c : Dev nD)
    (hin : ∀ i, ((m ((c : Thread nD τ).loc main_arg0)) i).toInt ≤ 100000)
    (hpos : ∀ (b : Fin 8) (h w : Fin 512), 0 < Cert.Composite.cnt (m ((c : Thread nD τ).loc main_arg0)) b h w) :
    transpose S8x512x512x4 [1, 2, 3, 0] (outArr (sarr m c) (narr m c)) Facts₀.transposes_S4x8x512x512_S8x512x512x4_1_2_3_0
      = Cert.Composite.image (m ((c : Thread nD τ).loc main_arg0)) (m ((c : Thread nD τ).loc main_arg2)) := by
  funext i
  obtain ⟨b, h, w, ch, rfl⟩ : ∃ (b : Fin 8) (h w : Fin 512) (ch : Fin 4), i = ix4 b h w ch := ⟨i 0, i 1, i 2, i 3, eq_ix4 i⟩
  rw [Cert.Composite.image_apply]
  refine (transpose_apply [1, 2, 3, 0] (outArr (sarr m c) (narr m c)) Facts₀.transposes_S4x8x512x512_S8x512x512x4_1_2_3_0
    (ix4 b h w ch) (ix4 ch b h w) (fun a => match a with
      | ⟨0, _⟩ => rfl
      | ⟨1, _⟩ => rfl
      | ⟨2, _⟩ => rfl
      | ⟨3, _⟩ => rfl)).trans ?_
  rw [outArr_apply,
    show sarr m c = summedT (F := Ideal) (m ((c : Thread nD τ).loc main_arg0)) (m ((c : Thread nD τ).loc main_arg2)) from V_summed m c,
    show narr m c = countT (F := Ideal) (m ((c : Thread nD τ).loc main_arg0)) from V_count m c,
    summedT_apply _ _ hin, countT_apply, factor_count _ (hpos b h w)]
  rfl

/-- The run: every weakly fair execution ends with the image and the depth map in the results, the arguments unchanged. -/
theorem run
    (hin : ∀ (c : Dev nD) i, ((m ((c : Thread nD τ).loc main_arg0)) i).toInt ≤ 100000)
    (hpos : ∀ (c : Dev nD) (b : Fin 8) (h w : Fin 512), 0 < Cert.Composite.cnt (m ((c : Thread nD τ).loc main_arg0)) b h w) :
    θ_run defs (onTc (τ := τ) (main (F := Ideal))) ⟨m, fun _ => 0, ρ⟩ (fun r => ∀ c : Dev nD,
      r.2.mem ((c.tc : Thread nD τ).loc main_v96) = Cert.Composite.image (m ((c : Thread nD τ).loc main_arg0)) (m ((c : Thread nD τ).loc main_arg2))
      ∧ r.2.mem ((c.tc : Thread nD τ).loc main_v1) = depthOf (F := Ideal) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v96 (Pipeline.mem_restRefs_of main_v96 (by decide) (by decide))).trans
        ((tail_images m c).trans (images_eq m c (hin c) (hpos c))),
      ((h c).2 main_v1 (Pipeline.mem_restRefs_of main_v1 (by decide) (by decide))).trans
        ((tail_depth m c).trans (V_depth m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Body

end
-- ==== Proof.Counts.lean ====
/-
  Counting a pixel's strictly positive point indices with 32-bit words: the mask "index > 0", widened to words and summed
  over the slot axis from zero, never wraps (at most eight ones), so the sum's value is the count.
-/
import proofs.«417189_j13855564497223_3_alg».proof.Proof.Words
import Idealize.ShloMosaic.PureOps.Reduce
import Idealize.ShloMosaic.Lib.StableHlo.Predicate

noncomputable section

open scoped BigOperators

namespace Cert.Composite

open Idealize.ShloMosaic Idealize.ShloMosaic.ValueIdx

/-- The point indices with the slot axis second, one value per pixel, and the scalar shape. -/
abbrev SPtsT : Shape := ⟨4, ![8, 8, 512, 512]⟩
abbrev SPix : Shape := ⟨3, ![8, 512, 512]⟩
abbrev SOne : Shape := ⟨0, ![]⟩

/-- Over a pixel, the source index with slot coordinate `k` inserted on the dropped axis. -/
private theorem lift_pix (hR : SPtsT.Reduces [1] SPix) (b : Fin 8) (h w : Fin 512) (k : Fin 8) :
    hR.lift (ix3 b h w) k = ix4 b k h w := by
  funext c
  apply Fin.ext
  match c with
  | ⟨0, _⟩ => rfl
  | ⟨1, _⟩ => rfl
  | ⟨2, _⟩ => rfl
  | ⟨3, _⟩ => rfl

/-- A widened bit is at most one. -/
private theorem widened_le_one (x : BitVec 1) : (x.setWidth 32).toNat ≤ 1 := by
  rw [StableHlo.Predicate.toNat_setWidth_bit]; split <;> omega

/-- A widened bit has the bit's value. -/
private theorem widened_toNat (x : BitVec 1) : (x.setWidth 32).toNat = x.toNat := by
  rcases BitVec.eq_zero_or_eq_one x with rfl | rfl <;> rfl

/-- Summing the widened bits of a mask over the slot axis gives, at a pixel, the number of its set bits. -/
theorem count_read (mask : IVec SPtsT 1) (h32 : 1 < 32) (hr : SPtsT.ReducesTo [1] SPix) (h0 : 0 < SOne.numel)
    (b : Fin 8) (h w : Fin 512) :
    (Host.reduce IntOp.addi (extui 32 mask h32) (constantI SOne 32 0#32) hr h0 (ix3 b h w)).toNat
      = ∑ k : Fin 8, (mask (ix4 b k h w)).toNat := by
  classical
  have hR : SPtsT.Reduces [1] SPix := by decide
  -- the reduce at the pixel is the fold of word addition from zero over the eight slot coordinates
  have hfold := Host.reduce_eq_fold_single IntOp.addi (extui 32 mask h32) (constantI SOne 32 0#32) hr hR h0 (ix3 b h w)
  -- each term of that fold is the widened bit of the mask at (b, k, h, w)
  have hterm : ∀ k : Fin 8, ((extui 32 mask h32 ∘ hR.lift (ix3 b h w)) k).toNat = (mask (ix4 b k h w)).toNat := by
    intro k
    show (extui 32 mask h32 (hR.lift (ix3 b h w) k)).toNat = _
    rw [lift_pix hR b h w k, extui_apply]
    exact widened_toNat _
  -- eight values, each at most one: the sum does not wrap
  have hle : ∀ k : Fin 8, ((extui 32 mask h32 ∘ hR.lift (ix3 b h w)) k).toNat ≤ 1 := by
    intro k
    show ((mask (hR.lift (ix3 b h w) k)).setWidth 32).toNat ≤ 1
    exact widened_le_one _
  have hbound : ∑ k ∈ (Finset.univ : Finset (Fin 8)), ((extui 32 mask h32 ∘ hR.lift (ix3 b h w)) k).toNat < 2 ^ 32 := by
    calc ∑ k ∈ (Finset.univ : Finset (Fin 8)), ((extui 32 mask h32 ∘ hR.lift (ix3 b h w)) k).toNat
        ≤ ∑ _k ∈ (Finset.univ : Finset (Fin 8)), 1 := Finset.sum_le_sum fun k _ => hle k
      _ = 8 := by simp
      _ < 2 ^ 32 := by norm_num
  rw [hfold]
  exact (StableHlo.Predicate.toNat_fold_addi (Finset.univ : Finset (Fin 8))
    (extui 32 mask h32 ∘ hR.lift (ix3 b h w)) hbound).trans (Finset.sum_congr rfl fun k _ => hterm k)

/-- The same for the mask "index > 0" of the slot-second point indices: the pixel's count. -/
theorem count_of_pts (pts : SPts.Idx → BitVec 32) (ptsT zero : IVec SPtsT 32)
    (hT : ∀ (b k : Fin 8) (h w : Fin 512), ptsT (ix4 b k h w) = pts (ix4 b h w k)) (hz : ∀ j, zero j = 0#32)
    (h32 : 1 < 32) (hr : SPtsT.ReducesTo [1] SPix) (h0 : 0 < SOne.numel) (b : Fin 8) (h w : Fin 512) :
    (Host.reduce IntOp.addi (extui 32 (cmpi .sgt ptsT zero) h32) (constantI SOne 32 0#32) hr h0 (ix3 b h w)).toNat
      = cnt pts b h w := by
  rw [count_read (cmpi .sgt ptsT zero) h32 hr h0 b h w]
  unfold cnt
  refine Finset.sum_congr rfl fun k _ => ?_
  -- the mask's bit at (b, k, h, w) compares the pixel's k-th index with zero
  show (IntOp.cmpi .sgt (ptsT (ix4 b k h w)) (zero (ix4 b k h w))).toNat = hit (pts (ix4 b h w k))
  rw [hT b k h w, hz (ix4 b k h w)]
  exact hit_eq _

/-- Read signed, the sum is the count as well (it is at most eight). -/
theorem count_of_pts_toInt (pts : SPts.Idx → BitVec 32) (ptsT zero : IVec SPtsT 32)
    (hT : ∀ (b k : Fin 8) (h w : Fin 512), ptsT (ix4 b k h w) = pts (ix4 b h w k)) (hz : ∀ j, zero j = 0#32)
    (h32 : 1 < 32) (hr : SPtsT.ReducesTo [1] SPix) (h0 : 0 < SOne.numel) (b : Fin 8) (h w : Fin 512) :
    (Host.reduce IntOp.addi (extui 32 (cmpi .sgt ptsT zero) h32) (constantI SOne 32 0#32) hr h0 (ix3 b h w)).toInt
      = ((cnt pts b h w : ℕ) : ℤ) := by
  have hn := count_of_pts pts ptsT zero hT hz h32 hr h0 b h w
  have hle := cnt_le pts b h w
  -- a value of at most eight has its sign bit clear
  rw [StableHlo.Predicate.toInt_eq_toNat_of_lt (by rw [hn]; exact lt_of_le_of_lt hle (by norm_num)), hn]

end Cert.Composite

end
-- ==== Proof.RefSide.lean ====
/-
  The reference's result is the image: its gather reads the padded table at the selected row, its sum over the slot axis
  is the sum of the eight selected rows, and its division by the root of the converted integer count is the
  normalisation.
-/
import proofs.«417189_j13855564497223_3_alg».proof.Proof.Gen.ReferenceIdeal.Read
import proofs.«417189_j13855564497223_3_alg».proof.Proof.Counts

noncomputable section

open scoped BigOperators

namespace Cert.Composite.Ref

open Idealize.ShloMosaic Idealize.ShloMosaic.ValueIdx Cert.ReferenceIdeal Cert.ReferenceIdeal.Gen Cert.ReferenceIdeal.Read

/-- The reference's gather: rows of the padded table, one start index per (batch, slot, row, column). -/
local notation "GD" => gather_S100001x4_S8x8x512x512x1_S8x8x512x512x4_4_0_n_n_0_4_14

/-- The gather read at (b, k, h, w, c): the operand at the start index of (b, k, h, w), read signed and clamped into
    0 … 100000, column c. The row axis is collapsed (its offset is zero), the column axis carries the offset c and has no
    start index. -/
private theorem gather_read {α : Type} (x : S100001x4.Idx → α) (idx : IVec S8x8x512x512x1 32)
    (b k : Fin 8) (h w : Fin 512) (c : Fin 4) :
    Host.gather GD x idx (ix5 b k h w c)
      = x (ix2 ⟨min (idx (ix5 b k h w (0 : Fin 1))).toInt.toNat 100000, by omega⟩ c) := by
  unfold Host.gather
  refine congrArg x (funext fun a => Fin.ext ?_)
  match a with
  | ⟨0, _⟩ =>
    show GatherDims.start GD (ix5 b k h w c) idx 0 + GatherDims.batchCoord GD (ix5 b k h w c) 0 + GatherDims.offCoord GD (ix5 b k h w c) 0
      = min (idx (ix5 b k h w (0 : Fin 1))).toInt.toNat 100000
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ GatherDims.startIndexMap GD from List.mem_singleton.mpr rfl)]
    have hsi : GatherDims.siIdx GD (ix5 b k h w c) ⟨List.idxOf (0 : Fin 2) (GatherDims.startIndexMap GD),
        List.idxOf_lt_length_iff.2 (List.mem_singleton.mpr rfl)⟩ = ix5 b k h w (0 : Fin 1) := by
      funext e; refine Fin.ext ?_
      match e with
      | ⟨0, _⟩ => rfl
      | ⟨1, _⟩ => rfl
      | ⟨2, _⟩ => rfl
      | ⟨3, _⟩ => rfl
      | ⟨4, _⟩ => rfl
    rw [hsi]
    rfl
  | ⟨1, _⟩ =>
    show GatherDims.start GD (ix5 b k h w c) idx 1 + GatherDims.batchCoord GD (ix5 b k h w c) 1 + GatherDims.offCoord GD (ix5 b k h w c) 1 = c.val
    rw [GatherDims.batchCoord_eq_zero _ _ _ List.not_mem_nil]
    have hs : GatherDims.start GD (ix5 b k h w c) idx 1 = 0 := by
      unfold GatherDims.start
      rw [dif_neg (show (1 : Fin 2) ∉ GatherDims.startIndexMap GD from by decide)]
    rw [hs]
    simp only [Nat.add_zero, Nat.zero_add]
    unfold GatherDims.offCoord
    rw [dif_pos (show (1 : Fin 2) ∈ GatherDims.sKept GD from by decide)]
    rfl

/-- The start index of the gather at (b, k, h, w): the remapped point index of slot k of pixel (b, h, w). -/
private theorem start_read (x0 : IVec S8x512x512x8 32) (b k : Fin 8) (h w : Fin 512) :
    val_main_v17 (F := Ideal) x0 (ix5 b k h w (0 : Fin 1)) = Cert.Composite.remap (x0 (ix4 b h w k)) := by
  have e17 : idx_main_v17 (ix5 b k h w (0 : Fin 1)) = ix4 b k h w := by
    funext a; match a with | ⟨0, _⟩ => rfl | ⟨1, _⟩ => rfl | ⟨2, _⟩ => rfl | ⟨3, _⟩ => rfl
  have e2 : idx_main_v2 (ix4 b k h w) = ix4 b h w k := by
    funext a; match a with | ⟨0, _⟩ => rfl | ⟨1, _⟩ => rfl | ⟨2, _⟩ => rfl | ⟨3, _⟩ => rfl
  have h2 : val_main_v2 (F := Ideal) x0 (ix4 b k h w) = x0 (ix4 b h w k) := by
    rw [val_main_v2_apply, e2]
  have h11 : val_main_v11 (F := Ideal) x0 (ix4 b k h w) = Cert.Composite.remap (x0 (ix4 b h w k)) := by
    rw [val_main_v11_apply, val_main_v10_apply, val_main_v9_apply, val_main_c_1_apply, val_main_call0_v1_apply,
      val_main_call0_v0_apply, val_main_c_2_apply, h2]
    rfl
  rw [val_main_v17_apply, e17, val_main_v16_apply, val_main_v13_apply, val_main_v15_apply, val_main_v12_apply,
    val_main_c_3_apply, val_main_v14_apply, val_main_c_4_apply, h11]
  exact Cert.Composite.wrap_remap _

/-- The padded table at a row r ≤ 100000: the feature row below 100000, zero at 100000. -/
private theorem table_read (x2 : FVec Ideal S100000x4 .f32) (r : Fin 100001) (n : ℕ) (hn : r.val = n) (c : Fin 4) :
    val_main_v8 (F := Ideal) x2 (ix2 r c) = Cert.Composite.padded x2 n c := by
  subst hn
  unfold val_main_v8 Cert.Composite.padded
  by_cases hr : r.val < 100000
  · rw [dif_pos hr]
    exact concatenate_pair_apply_left (0 : Fin 2) x2 (val_main_v7 (F := Ideal)) concatenates_S100000x4_S1x4_S100001x4_d0
      (ix2 r c) rfl (ix2 ⟨r.val, hr⟩ c) (fun a => match a with | ⟨0, _⟩ => rfl | ⟨1, _⟩ => rfl)
  · rw [dif_neg hr]
    have hz : val_main_v7 (F := Ideal) (ix2 (0 : Fin 1) c) = 0 := by
      rw [val_main_v7_apply, val_main_cst_apply]
      exact Ideal.ofBits_zero_f32
    refine (concatenate_pair_apply_right (0 : Fin 2) x2 (val_main_v7 (F := Ideal)) concatenates_S100000x4_S1x4_S100001x4_d0
      (ix2 r c) rfl rfl (ix2 (0 : Fin 1) c) (fun a => match a with | ⟨0, _⟩ => fun hne => absurd rfl hne | ⟨1, _⟩ => fun _ => rfl)
      ?_).trans hz
    show (0 : ℕ) + 100000 = r.val
    have := r.isLt
    omega

/-- The integer sum over the slot axis, read signed, is the pixel's count. -/
private theorem count_read_ref (x0 : IVec S8x512x512x8 32) (b : Fin 8) (h w : Fin 512) :
    (val_main_v6 (F := Ideal) x0 (ix3 b h w)).toInt = ((Cert.Composite.cnt x0 b h w : ℕ) : ℤ) := by
  have hT : ∀ (b k : Fin 8) (h w : Fin 512), val_main_v2 (F := Ideal) x0 (ix4 b k h w) = x0 (ix4 b h w k) := by
    intro b k h w
    rw [val_main_v2_apply]
    exact congrArg x0 (funext fun a => match a with | ⟨0, _⟩ => rfl | ⟨1, _⟩ => rfl | ⟨2, _⟩ => rfl | ⟨3, _⟩ => rfl)
  have hz : ∀ j, val_main_v3 (F := Ideal) j = 0#32 := by
    intro j
    rw [val_main_v3_apply, val_main_c_apply]
  exact Cert.Composite.count_of_pts_toInt x0 (val_main_v2 (F := Ideal) x0) (val_main_v3 (F := Ideal)) hT hz
    natLt_1_32 reducesTo_S8x8x512x512_S8x512x512_d1 h_S_ b h w

/-- The divisor at (b, h, w, c): the root of the count. -/
private theorem divisor_read (x0 : IVec S8x512x512x8 32) (b : Fin 8) (h w : Fin 512) (c : Fin 4) :
    val_main_v23 (F := Ideal) x0 (ix4 b h w c) = Ideal.sqrt (((Cert.Composite.cnt x0 b h w : ℕ) : ℝ) : EReal) := by
  have e23 : idx_main_v22 (idx_main_v23 (ix4 b h w c)) = ix3 b h w := by
    funext a; match a with | ⟨0, _⟩ => rfl | ⟨1, _⟩ => rfl | ⟨2, _⟩ => rfl
  rw [val_main_v23_apply, val_main_v22_apply, e23, val_main_v21_apply, val_main_v20_apply]
  show Ideal.sqrt (((val_main_v6 (F := Ideal) x0 (ix3 b h w)).toInt : ℝ) : EReal) = _
  rw [count_read_ref, Int.cast_natCast]

/-- One gathered element is the padded table at the row the point index selects. -/
private theorem gathered_read (x0 : IVec S8x512x512x8 32) (x2 : FVec Ideal S100000x4 .f32)
    (hin : ∀ i, (x0 i).toInt ≤ 100000) (b k : Fin 8) (h w : Fin 512) (c : Fin 4) :
    val_main_v18 (F := Ideal) x0 x2 (ix5 b k h w c)
      = Cert.Composite.padded x2 (Cert.Composite.rowOf (x0 (ix4 b h w k))) c := by
  unfold val_main_v18
  rw [gather_read]
  refine table_read x2 _ _ ?_ c
  show min (val_main_v17 (F := Ideal) x0 (ix5 b k h w (0 : Fin 1))).toInt.toNat 100000 = _
  rw [start_read]
  exact Cert.Composite.clamp_remap _ (hin _)

/-- The float sum over the slot axis, from zero, is the sum of the eight selected rows. -/
private theorem sum_read (x0 : IVec S8x512x512x8 32) (x2 : FVec Ideal S100000x4 .f32)
    (hin : ∀ i, (x0 i).toInt ≤ 100000) (b : Fin 8) (h w : Fin 512) (c : Fin 4) :
    val_main_v19 (F := Ideal) x0 x2 (ix4 b h w c) = Cert.Composite.featSum x0 x2 b h w c := by
  rw [val_main_v19_apply, val_main_cst_5_apply]
  show Ideal.ofBits .f32 0x00000000#32 + _ = _
  rw [Ideal.ofBits_zero_f32, zero_add]
  unfold Cert.Composite.featSum
  refine Finset.sum_congr rfl fun k _ => ?_
  have e : idx_main_v19 (ix4 b h w c) k = ix5 b k h w c := by
    funext a; match a with | ⟨0, _⟩ => rfl | ⟨1, _⟩ => rfl | ⟨2, _⟩ => rfl | ⟨3, _⟩ => rfl | ⟨4, _⟩ => rfl
  rw [e]
  exact gathered_read x0 x2 hin b k h w c

theorem ref_image (x0 : IVec S8x512x512x8 32) (x2 : FVec Ideal S100000x4 .f32)
    (hin : ∀ i, (x0 i).toInt ≤ 100000) (hpos : ∀ (b : Fin 8) (h w : Fin 512), 0 < Cert.Composite.cnt x0 b h w) :
    val_main_v24 (F := Ideal) x0 x2 = Cert.Composite.image x0 x2 := by
  funext i
  obtain ⟨b, h, w, c, rfl⟩ : ∃ (b : Fin 8) (h w : Fin 512) (c : Fin 4), i = ix4 b h w c :=
    ⟨i 0, i 1, i 2, i 3, eq_ix4 i⟩
  rw [val_main_v24_apply, sum_read x0 x2 hin, divisor_read, Cert.Composite.image_apply]
  exact Cert.Composite.div_sqrt_count _ _ (hpos b h w)

end Cert.Composite.Ref

end
-- ==== Proof.PreDecode.lean ====
/-
  What the precondition says of the point indices: every index is at most 100000, and every pixel has a strictly positive
  index among its eight.
-/
import proofs.«417189_j13855564497223_3_alg».proof.Pre_finite_inputs
import proofs.«417189_j13855564497223_3_alg».proof.Proof.Counts
import Idealize.ShloMosaic.Lib.ReduceAll
import Idealize.ShloMosaic.Lib.Pipeline.Value

noncomputable section

namespace Cert.Composite

open Idealize.ShloMosaic Idealize.ShloMosaic.ValueIdx

theorem pre_bounds [Cert.Pre_finite_inputs.Facts] {F : FTy → Type} [FloatOps F]
    (x0 : IVec Cert.Pre_finite_inputs.S8x512x512x8 32) (x1 : FVec F Cert.Pre_finite_inputs.S8x512x512x8 .f32)
    (x2 : FVec F Cert.Pre_finite_inputs.S100000x4 .f32)
    (hpre : Cert.Pre_finite_inputs.fn (F := F) x0 x1 x2 = fun _ => 1#1) :
    (∀ i, (x0 i).toInt ≤ 100000) ∧ (∀ (b : Fin 8) (h w : Fin 512), 0 < cnt x0 b h w) := by
  haveI : Subsingleton Cert.Pre_finite_inputs.S_.Idx := ⟨fun a b => funext fun d => d.elim0⟩
  -- the precondition's one element is the conjunction of four "all"s
  have hp := congrFun hpre ValueIdx.ix0
  dsimp only [Cert.Pre_finite_inputs.fn, Cert.Pre_finite_inputs.fn_part1] at hp
  obtain ⟨h12, h20⟩ := IntOp.andi_eq_one.1 hp
  obtain ⟨_, h11⟩ := IntOp.andi_eq_one.1 h12
  refine ⟨fun i => ?_, fun b h w => ?_⟩
  · -- third "all": every index compares ≤ 100000
    have he := Host.reduce_andi_all _ _ _ _ _ h11 i
    have hle := IntOp.cmpi_sle.1 he
    have hc : (100000#32 : BitVec 32).toInt = 100000 := toInt_100000
    exact hc ▸ hle
  · -- fourth "all": every pixel's count compares > 0
    have he := Host.reduce_andi_all _ _ _ _ _ h20 (ix3 b h w)
    have hlt := IntOp.cmpi_sgt.1 he
    -- the compared sum is the pixel's count: the transposed indices at (b, k, h, w) are the indices at (b, h, w, k)
    have hcount := count_of_pts_toInt x0
      (transpose Cert.Pre_finite_inputs.S8x8x512x512 [0, 3, 1, 2] x0
        Cert.Pre_finite_inputs.Facts.transposes_S8x512x512x8_S8x8x512x512_0_3_1_2)
      (broadcastInDim Cert.Pre_finite_inputs.S8x8x512x512 ![] Cert.Pre_finite_inputs.Facts.bcast_S_S8x8x512x512
        (constantI Cert.Pre_finite_inputs.S_ 32 0#32))
      (fun b k h w => transpose_apply [0, 3, 1, 2] x0 _ (ix4 b k h w) (ix4 b h w k) (fun c => by
        match c with
        | ⟨0, _⟩ => rfl
        | ⟨1, _⟩ => rfl
        | ⟨2, _⟩ => rfl
        | ⟨3, _⟩ => rfl))
      (fun _ => rfl)
      Cert.Pre_finite_inputs.Facts.natLt_1_32 Cert.Pre_finite_inputs.Facts.reducesTo_S8x8x512x512_S8x512x512_d1
      Cert.Pre_finite_inputs.Facts.h_S_ b h w
    have hpos : (0 : ℤ) < ((cnt x0 b h w : ℕ) : ℤ) :=
      calc (0 : ℤ) = (0#32 : BitVec 32).toInt := toInt_zero32.symm
        _ < _ := hlt
        _ = _ := hcount
    exact_mod_cast hpos

end Cert.Composite

end
-- ==== Proof.lean ====
/-
  Equal-weight compositing of a point cloud: each pixel carries eight point indices into a feature table padded with a
  zero row (a negative index selects the zero row); its four channels are the sum of the eight selected rows divided by
  the square root of the number of strictly positive indices. The second result is a depth map, a slice of the depth
  buffer.

  The kernel's program gathers and sums the rows and counts the positive indices on the host, slot by slot, and its
  kernel multiplies each summed feature by the reciprocal root of the count, guarded to zero where the count is zero; the
  reference gathers once, sums over the slot axis, and divides by the root of the integer count. The precondition keeps
  both inside the reference's own domain: every index at most 100000, so that the reference's gather stays inside its
  table (and the kernel's filling gather never fills); and every pixel with a strictly positive index, so that the
  reference does not divide by zero (and the kernel's guard never binds). There the two results are one function of the
  arguments (`Cert.Composite.image`): sums of extended reals are commutative and associative, and for a count N ≥ 1
  dividing by √N is multiplying by (√N)⁻¹ — the float inputs' finiteness is not needed for that.
-/
import proofs.«417189_j13855564497223_3_alg».proof.Defs
import proofs.«417189_j13855564497223_3_alg».proof.Proof.Gen.Kernel
import proofs.«417189_j13855564497223_3_alg».proof.Proof.Gen.Kernel.Skeleton
import proofs.«417189_j13855564497223_3_alg».proof.Proof.Gen.Kernel.Launch
import proofs.«417189_j13855564497223_3_alg».proof.Proof.Gen.Kernel.Points
import proofs.«417189_j13855564497223_3_alg».proof.Proof.Gen.Kernel.Frame
import proofs.«417189_j13855564497223_3_alg».proof.Proof.Gen.KernelIdeal
import proofs.«417189_j13855564497223_3_alg».proof.Proof.Gen.KernelIdeal.Skeleton
import proofs.«417189_j13855564497223_3_alg».proof.Proof.Gen.KernelIdeal.Launch
import proofs.«417189_j13855564497223_3_alg».proof.Proof.Gen.KernelIdeal.Points
import proofs.«417189_j13855564497223_3_alg».proof.Proof.Gen.KernelIdeal.Frame
import proofs.«417189_j13855564497223_3_alg».proof.Proof.Gen.ReferenceIdeal
import proofs.«417189_j13855564497223_3_alg».proof.Proof.Gen.ReferenceIdeal.Run
import proofs.«417189_j13855564497223_3_alg».proof.Proof.Gen.ReferenceIdeal.Read
import proofs.«417189_j13855564497223_3_alg».proof.Proof.Gen.Pre_finite_inputs
import proofs.«417189_j13855564497223_3_alg».proof.Proof.KRun
import proofs.«417189_j13855564497223_3_alg».proof.Proof.RefSide
import proofs.«417189_j13855564497223_3_alg».proof.Proof.PreDecode
import Idealize.ShloMosaic.Adequacy
import Idealize.ShloMosaic.Init

noncomputable section

namespace Cert.Proof

open Idealize.ShloMosaic Idealize.ShloMosaic.TcCoe Idealize.SL.Sem

/-- The kernel's program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the arguments both programs end with the image and the depth map. -/
theorem algebraic : Cert.algebraic_KernelIdeal_ReferenceIdeal := by
  intro m ρ m' ρ' hpre hagree
  have hb : ∀ c : Dev Cert.KernelIdeal.nD,
      (∀ i, ((m ((c : Thread Cert.KernelIdeal.nD Cert.KernelIdeal.τ).loc Cert.KernelIdeal.main_arg0)) i).toInt ≤ 100000)
      ∧ (∀ (b : Fin 8) (h w : Fin 512),
          0 < Cert.Composite.cnt (m ((c : Thread Cert.KernelIdeal.nD Cert.KernelIdeal.τ).loc Cert.KernelIdeal.main_arg0)) b h w) :=
    fun c => Cert.Composite.pre_bounds _ _ _ (hpre c)
  refine ⟨fun c => Cert.Composite.image (m ((c : Thread Cert.KernelIdeal.nD Cert.KernelIdeal.τ).loc Cert.KernelIdeal.main_arg0))
        (m ((c : Thread Cert.KernelIdeal.nD Cert.KernelIdeal.τ).loc Cert.KernelIdeal.main_arg2)),
      fun c => Cert.KernelIdeal.Prefix.depthOf (F := Ideal) (m ((c : Thread Cert.KernelIdeal.nD Cert.KernelIdeal.τ).loc Cert.KernelIdeal.main_arg1)),
      Cert.KernelIdeal.Body.run m ρ (fun c => (hb c).1) (fun c => (hb c).2), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v24_eq, (hagree c).1, (hagree c).2.2]
    exact Cert.Composite.Ref.ref_image _ _ (hb c).1 (hb c).2
  · rw [(h c).2.1, (hagree c).2.1]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
